-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x12288 : Shape := ⟨3, ![8, 2048, 12288]⟩
abbrev S8x6144x2048 : Shape := ⟨3, ![8, 6144, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x12288 : S_.BroadcastsInDim S8x2048x12288 (![] : Fin 0 → Fin S8x2048x12288.rank)
  reducesTo_S8x2048x12288_S_d0_1_2 : S8x2048x12288.ReducesTo [0, 1, 2] S_
  bcast_S_S8x6144x2048 : S_.BroadcastsInDim S8x6144x2048 (![] : Fin 0 → Fin S8x6144x2048.rank)
  reducesTo_S8x6144x2048_S_d0_1_2 : S8x6144x2048.ReducesTo [0, 1, 2] S_

variable [Facts]

def fn {F : FTy → Type} [FloatOps F] (main_arg0 : FVec F S8192x2048 .f32) (main_arg1 : FVec F S8x2048x12288 .f32) (main_arg2 : FVec F S8x6144x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x12288 .f32 := Host.absf main_arg1
  let main_cst_0 : FVec F S_ .f32 := constant S_ .f32 0x7F800000#32
  let main_v5 : FVec F S8x2048x12288 .f32 := broadcastInDim S8x2048x12288 ![] bcast_S_S8x2048x12288 main_cst_0
  let main_v6 : IVec S8x2048x12288 1 := cmpf .olt main_v4 main_v5
  let main_c_1 : IVec S_ 1 := constantI S_ 1 1#1
  let main_v7 : IVec S_ 1 := (fun x v => Host.reduce IntOp.andi x v reducesTo_S8x2048x12288_S_d0_1_2 h_S_) main_v6 main_c_1
  let main_v8 : IVec S_ 1 := andi main_v3 main_v7
  let main_v9 : FVec F S8x6144x2048 .f32 := Host.absf main_arg2
  let main_cst_2 : FVec F S_ .f32 := constant S_ .f32 0x7F800000#32
  let main_v10 : FVec F S8x6144x2048 .f32 := broadcastInDim S8x6144x2048 ![] bcast_S_S8x6144x2048 main_cst_2
  let main_v11 : IVec S8x6144x2048 1 := cmpf .olt main_v9 main_v10
  let main_c_3 : IVec S_ 1 := constantI S_ 1 1#1
  let main_v12 : IVec S_ 1 := (fun x v => Host.reduce IntOp.andi x v reducesTo_S8x6144x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x12288 : Shape := ⟨3, ![8, 2048, 12288]⟩
abbrev S8x6144x2048 : Shape := ⟨3, ![8, 6144, 2048]⟩
abbrev S8x1024x2048 : Shape := ⟨3, ![8, 1024, 2048]⟩
abbrev S8x1024x6144 : Shape := ⟨3, ![8, 1024, 6144]⟩
abbrev S1x512x2048 : Shape := ⟨3, ![1, 512, 2048]⟩
abbrev S1x2048x512 : Shape := ⟨3, ![1, 2048, 512]⟩
abbrev S1x512x512 : Shape := ⟨3, ![1, 512, 512]⟩
abbrev S512x2048 : Shape := ⟨2, ![512, 2048]⟩
abbrev S2048x512 : Shape := ⟨2, ![2048, 512]⟩
abbrev S512x512 : Shape := ⟨2, ![512, 512]⟩
abbrev S1x512x1024 : Shape := ⟨3, ![1, 512, 1024]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 7
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8x2048x12288, .f32⟩
  | .hbm, ⟨2, _⟩ => ⟨S8x6144x2048, .f32⟩
  | .hbm, ⟨3, _⟩ => ⟨S8x1024x2048, .f32⟩
  | .hbm, ⟨4, _⟩ => ⟨S8x1024x6144, .bf16⟩
  | .hbm, ⟨5, _⟩ => ⟨S8x1024x2048, .f32⟩
  | .hbm, ⟨6, _⟩ => ⟨S8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x2048, .f32⟩
  | .local _ .vmem, ⟨11, _⟩ => ⟨S1x1024x2048, .f32⟩
  | .local _ .vmem, ⟨12, _⟩ => ⟨S1x512x2048, .f32⟩
  | .local _ .vmem, ⟨13, _⟩ => ⟨S1x512x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 2, 12], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg2 c12_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨3, ![8, 2, 6], ![false, false, false]⟩

def k1_cond2 (i : grid1.Coords) : BitVec 1 :=
  let arg2 : BitVec 32 := BitVec.ofNat 32 (i 2).val
  let c5_i32 : BitVec 32 := 5#32
  let v14 : BitVec 1 := Scalar.cmpi .eq arg2 c5_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S8192x2048_S8x1024x2048 : S8192x2048.ShapeCasts S8x1024x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  packedbf16_S1x512x512_S1x512x512_0_0_0 : (Rect.unit (s := S1x512x512) ![0, 0, 0] S1x512x512.size inb_S1x512x512_S1x512x512_0_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S512x2048_S1x512x2048 : S512x2048.ShapeCasts S1x512x2048
  shapeCasts_S8x1024x2048_S8192x2048 : S8x1024x2048.ShapeCasts S8192x2048
  dot_S512x2048_S2048x512_S512x512_1_0_0_1_n_n_wf : DotDims.WF S512x2048 S2048x512 S512x512 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x1024x2048.size a
  hwx0_0 : ∀ i : grid0.Coords, EltTy.bits .f32 = 32 ∨ (Rect.block (s := S8x1024x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x12288.size a
  hwx0_1 : ∀ i : grid0.Coords, EltTy.bits .f32 = 32 ∨ (Rect.block (s := S8x2048x12288) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x12288.size a
  hwx0_2 : ∀ i : grid0.Coords, EltTy.bits .f32 = 32 ∨ (Rect.block (s := S8x2048x12288) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x1024x6144.size a
  hwx0_3 : ∀ i : grid0.Coords, EltTy.bits .bf16 = 32 ∨ (Rect.block (s := S8x1024x6144) S1x512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x1024x6144.size a
  hwx1_0 : ∀ i : grid1.Coords, EltTy.bits .bf16 = 32 ∨ (Rect.block (s := S8x1024x6144) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x2048.size a ≤ S8x6144x2048.size a
  hwx1_1 : ∀ i : grid1.Coords, EltTy.bits .f32 = 32 ∨ (Rect.block (s := S8x6144x2048) S1x1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S8x1024x2048.size a
  hwx1_2 : ∀ i : grid1.Coords, EltTy.bits .f32 = 32 ∨ (Rect.block (s := S8x1024x2048) S1x512x2048.size (cc1_transform_2 i) (hinb1_2 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x12288 : Shape := ⟨3, ![8, 2048, 12288]⟩
abbrev S8x6144x2048 : Shape := ⟨3, ![8, 6144, 2048]⟩
abbrev S8x1024x2048 : Shape := ⟨3, ![8, 1024, 2048]⟩
abbrev S8x1024x12288 : Shape := ⟨3, ![8, 1024, 12288]⟩
abbrev S8x1024x6144 : Shape := ⟨3, ![8, 1024, 6144]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x12288, .f32⟩
  | .hbm, ⟨2, _⟩ => ⟨S8x6144x2048, .f32⟩
  | .hbm, ⟨3, _⟩ => ⟨S8x1024x2048, .f32⟩
  | .hbm, ⟨4, _⟩ => ⟨S8x1024x12288, .f32⟩
  | .hbm, ⟨5, _⟩ => ⟨S8x1024x6144, .f32⟩
  | .hbm, ⟨6, _⟩ => ⟨S8x1024x6144, .f32⟩
  | .hbm, ⟨7, _⟩ => ⟨S8x1024x6144, .f32⟩
  | .hbm, ⟨8, _⟩ => ⟨S8x1024x6144, .f32⟩
  | .hbm, ⟨9, _⟩ => ⟨S_, .f32⟩
  | .hbm, ⟨10, _⟩ => ⟨S8x1024x6144, .f32⟩
  | .hbm, ⟨11, _⟩ => ⟨S8x1024x6144, .f32⟩
  | .hbm, ⟨12, _⟩ => ⟨S_, .f32⟩
  | .hbm, ⟨13, _⟩ => ⟨S8x1024x6144, .f32⟩
  | .hbm, ⟨14, _⟩ => ⟨S8x1024x6144, .f32⟩
  | .hbm, ⟨15, _⟩ => ⟨S8x1024x6144, .f32⟩
  | .hbm, ⟨16, _⟩ => ⟨S8x1024x6144, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x12288_S8x1024x6144_0_0_0 : S8x1024x12288.Slices ![0, 0, 0] S8x1024x6144
  slices_S8x1024x12288_S8x1024x6144_0_0_6144 : S8x1024x12288.Slices ![0, 0, 6144] S8x1024x6144
  bcast_S_S8x1024x6144 : S_.BroadcastsInDim S8x1024x6144 (![] : Fin 0 → Fin S8x1024x6144.rank)
  shapeCasts_S8x1024x2048_S8192x2048 : S8x1024x2048.ShapeCasts S8192x2048
  dot_S8x1024x2048_S8x2048x12288_S8x1024x12288_2_1_1_2_0_0_wf : DotDims.WF S8x1024x2048 S8x2048x12288 S8x1024x12288 [2] [1] [1] [2] [0] [0]
  dot_S8x1024x6144_S8x6144x2048_S8x1024x2048_2_1_1_2_0_0_wf : DotDims.WF S8x1024x6144 S8x6144x2048 S8x1024x2048 [2] [1] [1] [2] [0] [0]

variable [Facts₀]

def dot_S8x1024x2048_S8x2048x12288_S8x1024x12288_2_1_1_2_0_0 : DotDims S8x1024x2048 S8x2048x12288 S8x1024x12288 where
  lhsContracting := [2]
  rhsContracting := [1]
  lhsNonContracting := [1]
  rhsNonContracting := [2]
  lhsBatch := [0]
  rhsBatch := [0]
  wf := dot_S8x1024x2048_S8x2048x12288_S8x1024x12288_2_1_1_2_0_0_wf
def dot_S8x1024x6144_S8x6144x2048_S8x1024x2048_2_1_1_2_0_0 : DotDims S8x1024x6144 S8x6144x2048 S8x1024x2048 where
  lhsContracting := [2]
  rhsContracting := [1]
  lhsNonContracting := [1]
  rhsNonContracting := [2]
  lhsBatch := [0]
  rhsBatch := [0]
  wf := dot_S8x1024x6144_S8x6144x2048_S8x1024x2048_2_1_1_2_0_0_wf

class Facts : Prop extends Facts₀ where

variable [Facts]
-- ==== Proof.Bits.GateUpData.lean ====
/- The first launch (gate/up projection and activation), as data.

   At grid point (e, t, n) the launch reads the token tile x[e, 512t .. 512t+511, :], the gate
   columns w[e, :, 512n ..] and the up columns w[e, :, 6144 + 512n ..] of ONE weight array
   (two windows on it, each holding half of the array's share), and writes the hidden tile
   h[e, 512t .., 512n ..] = (g · logistic g) · u with g, u the two tile products.
   Nothing is carried between points. -/
import proofs.«108341_j45956150067877_1_alg».proof.Proof.Gen.Kernel.Launch
import proofs.«108341_j45956150067877_1_alg».proof.Proof.Gen.Kernel.Skeleton
import proofs.«108341_j45956150067877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the launch is entered
variable (V : (c : Dev nD) → (b : Ref sig .tc) → Buf (Elt F) ((c : Thread nD τ).loc b))

/-- Window `w`'s block at grid point `t`, read off its array at the entry contents. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The share of its array each input window holds: the weight array is read through windows 1 and 2,
    which hold its two halves; the token array is window 0's alone. -/
def shareOf : Fin cfg0.W → PosShare TreeShare
  | ⟨0, _⟩ => fullShare
  | ⟨1, _⟩ => fullShare.left
  | ⟨2, _⟩ => fullShare.right
  | ⟨3, _⟩ => fullShare

/-- The launch's proof data on core `c`: after the body at point `t` every input buffer still holds its
    block and the output buffer holds the hidden tile computed from the three input blocks. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => k0_pay1 (blk V c 0 t) (blk V c 1 t) (blk V c 2 t)
  Φ _ := Pipeline.ΦA spec0 c
  q := shareOf
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = k0_pay1 (blk V c 0 t) (blk V c 1 t) (blk V c 2 t) := by dsimp only [dat]

theorem share_0 (c : Dev nD) : (dat V c).share 0 = fullShare := rfl
theorem share_1 (c : Dev nD) : (dat V c).share 1 = fullShare.left := rfl
theorem share_2 (c : Dev nD) : (dat V c).share 2 = fullShare.right := rfl
theorem share_3 (c : Dev nD) : (dat V c).share 3 = fullShare := rfl

end Cert.Kernel.GateUp

end
-- ==== Proof.Bits.GateUpBody.lean ====
/- The first launch's body meets its proof data at every grid point. -/
import proofs.«108341_j45956150067877_1_alg».proof.Proof.Bits.GateUpData
import Idealize.ShloMosaic.Lib.Pipeline.Value

set_option maxRecDepth 16384

noncomputable section

namespace Cert.Kernel.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

/-- The token window's current buffer holds its block at every point, fetched there or not: where it is not
    fetched its block index has not moved. -/
theorem before_0 (c : Dev nD) (t : Fin cfg0.N) (d) : (dat V c).before 0 t d = blk V c 0 t :=
  ((dat V c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)

/-- The gate-weight window's current buffer holds its block at every point. -/
theorem before_1 (c : Dev nD) (t : Fin cfg0.N) (d) : (dat V c).before 1 t d = blk V c 1 t :=
  ((dat V c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)

/-- The up-weight window's current buffer holds its block at every point. -/
theorem before_2 (c : Dev nD) (t : Fin cfg0.N) (d) : (dat V c).before 2 t d = blk V c 2 t :=
  ((dat V c).before_in_eq_fetched 2 rfl (fun _ => rfl) (fun _ _ _ => rfl)
      (fun t => by rw [after_2]; unfold Dat.blockOf blk; rw [A_eq]; try rfl) t d).trans
    (by unfold Dat.fetched Dat.blockOf blk; rw [A_eq]; try rfl)

/-! ## The body's accesses: each buffer whole -/

theorem zeros3 : (![0, 0, 0] : Fin 3 → Nat) = fun _ => 0 := funext fun a => by fin_cases a <;> rfl

abbrev rTok : Rect S1x512x2048 := Rect.unit (s := S1x512x2048) ![0, 0, 0] S1x512x2048.size inb_S1x512x2048_S1x512x2048_0_0_0
abbrev rWt : Rect S1x2048x512 := Rect.unit (s := S1x2048x512) ![0, 0, 0] S1x2048x512.size inb_S1x2048x512_S1x2048x512_0_0_0
abbrev rHid : Rect S1x512x512 := Rect.unit (s := S1x512x512) ![0, 0, 0] S1x512x512.size inb_S1x512x512_S1x512x512_0_0_0

/-- The hidden tile's buffer after the body, from the three input buffers: its one store, over the whole buffer. -/
def out3 (x0 : Vec F S1x512x2048 .f32) (x1 x2 : Vec F S1x2048x512 .f32) : Vec F S1x512x512 .bf16 :=
  View.canon [⟨rHid, k0_pay1 (View.ld x0 rTok) (View.ld x1 rWt) (View.ld x2 rWt)⟩]

/-- The one store covers the buffer. -/
theorem cover3 (p0 : Vec F S1x512x512 .bf16) (y : S1x512x512.Idx) :
    ∃ pc ∈ ([⟨rHid, p0⟩] : List (View.Piece (Elt F) S1x512x512 .bf16)), y ∈ pc.1.set :=
  ⟨_, List.mem_singleton_self _, View.mem_set_unit_zero (S := S1x512x512) zeros3 inb_S1x512x512_S1x512x512_0_0_0 y⟩

/-- A whole-buffer store of a value computed from whole-buffer loads leaves that value of the buffers. -/
theorem out3_eq (x0 : Vec F S1x512x2048 .f32) (x1 x2 : Vec F S1x2048x512 .f32) :
    out3 x0 x1 x2 = k0_pay1 x0 x1 x2 := by
  unfold out3
  rw [View.canon_unit_zero zeros3, View.ld_unit_zero zeros3, View.ld_unit_zero zeros3, View.ld_unit_zero zeros3]

/-! ## The body's triple -/

set_option maxHeartbeats 1000000 in
/-- The kernel body on whole staging buffers, the inputs' at contents `x0 x1 x2` and the output's at anything, runs to
    the continuation holding the inputs' as they were and the output's at `out3` of them. -/
theorem sound_kernel (c : Dev nD) (E : Set ℕ) (i : grid0.Coords)
    (arg3 : Memref sig .tc .vmem S1x512x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x512 .bf16) (harg6 : arg6.IsWhole)
    (x0 : Vec F S1x512x2048 .f32) (x1 x2 : Vec F S1x2048x512 .f32) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ (iprop(owns (c : Thread nD τ) arg3 fullShare x0 ∗ owns (c : Thread nD τ) arg4 fullShare x1
            ∗ owns (c : Thread nD τ) arg5 fullShare x2 ∗ owns (c : Thread nD τ) arg6 fullShare (out3 x0 x1 x2)) -∗ K ⟨⟩))
      ⊢ wp frame (wpE (defs₀ (F := F)) Variants.none c none) E (cc0__gate_up_kernel i arg3 harg3 arg4 harg4 arg5 harg5 arg6 harg6) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The body obligation, at a generic point -/

/-- What the body is called with at point `t`: the invariant, what the core owes, and each window's current buffer
    at what it then holds, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the three input buffers hold their blocks, so the body's triple applies; the invariant
    and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3,
    ← out3_eq (blk V c 0 t) (blk V c 1 t) (blk V c 2 t)]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the first launch, at every point. -/
theorem body_obligation (c : Dev nD) : BodyObligation (dat (F := F) V c) (defs₀ (F := F)) Variants.none () Set.univ := fun t => by
  rw [bigSep_W0, bigSep_W0]
  exact sound_body V c t

end Cert.Kernel.GateUp

end
-- ==== Proof.Bits.DownData.lean ====
/- The second launch (down projection), as data.

   At grid point (e, t, k) the launch reads the hidden tile h[e, 512t .., 1024k ..] and the weight
   tile wd[e, 1024k .., :], and adds their product into an accumulator kept in a scratch buffer:
   the accumulator restarts from zero at k = 0 and is copied into the output block at k = 5, the one
   point of each run of six where that block is written back. -/
import proofs.«108341_j45956150067877_1_alg».proof.Proof.Gen.Kernel.Launch
import proofs.«108341_j45956150067877_1_alg».proof.Proof.Gen.Kernel.Skeleton
import proofs.«108341_j45956150067877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the launch is entered
variable (V : (c : Dev nD) → (b : Ref sig .tc) → Buf (Elt F) ((c : Thread nD τ).loc b))

/-- Window `w`'s block at grid point `t`, read off its array at the entry contents. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer that carries the accumulator. -/
abbrev accBuf : Memref sig .tc .vmem S512x2048 .f32 := Memref.whole cc1_scratch0

/-- The accumulator after the body at position `n`: the product of the point's two tiles added to zero
    at the first point of a run of six (`n % 6 = 0`), to what the point before left otherwise. -/
def accAt (c : Dev nD) : (n : ℕ) → n < cfg1.N → Vec F S512x2048 .f32
  | 0, hn => k1_pay2 (blk V c 0 ⟨0, hn⟩) (blk V c 1 ⟨0, hn⟩) (k1_pay1 (F := F))
  | n + 1, hn =>
    if (n + 1) % 6 = 0 then k1_pay2 (blk V c 0 ⟨n + 1, hn⟩) (blk V c 1 ⟨n + 1, hn⟩) (k1_pay1 (F := F))
    else k1_pay2 (blk V c 0 ⟨n + 1, hn⟩) (blk V c 1 ⟨n + 1, hn⟩) (accAt c n (Nat.lt_of_succ_lt hn))

theorem accAt_reset (c : Dev nD) (t : Fin cfg1.N) (h : t.val % 6 = 0) :
    accAt V c t.val t.isLt = k1_pay2 (blk V c 0 t) (blk V c 1 t) (k1_pay1 (F := F)) := by
  obtain ⟨n, hn⟩ := t
  cases n with
  | zero => rfl
  | succ n => exact if_pos h

theorem accAt_step (c : Dev nD) (t : Fin cfg1.N) (h : ¬t.val % 6 = 0) :
    accAt V c t.val t.isLt
      = k1_pay2 (blk V c 0 t) (blk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The scoped buffers the launch does not stage and does not use: the first launch's staging buffers,
    each at some contents. -/
def idleBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The launch's invariant before position `n`: before the first point every scoped buffer it does not
    stage is at anything; afterwards the scratch holds the accumulator the point before left. -/
def inv (c : Dev nD) : (n : ℕ) → n ≤ cfg1.N → sProp 𝕄
  | 0, _ => Pipeline.ΦA spec1 c
  | n + 1, hn => iprop(owns (c : Thread nD τ) accBuf fullShare (accAt V c n hn) ∗ idleBufs (F := F) c ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(owns (c : Thread nD τ) accBuf fullShare (accAt V c n hn) ∗ idleBufs (F := F) c ∗ (∃ r, prngReg c r)) := rfl

theorem inv_pos (c : Dev nD) (n : ℕ) (h : n ≤ cfg1.N) (hz : n ≠ 0) :
    inv V c n h = iprop(owns (c : Thread nD τ) accBuf fullShare (accAt V c (n - 1) (by omega)) ∗ idleBufs (F := F) c ∗ (∃ r, prngReg c r)) := by
  cases n with
  | zero => exact absurd rfl hz
  | succ n => rfl

/-- The launch's proof data on core `c`: the input buffers keep their blocks; the output buffer, at the
    points that store into it, holds the accumulator. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => k1_pay3 (accAt V c t.val t.isLt)
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = k1_pay3 (accAt V c t.val t.isLt) := by dsimp only [dat]

theorem inv_castSucc (c : Dev nD) (t : Fin cfg1.N) :
    (dat V c).Φ t.castSucc = inv V c t.val (Nat.le_of_lt t.isLt) := by
  dsimp only [dat]; simp only [Fin.coe_castSucc]

theorem inv_at_succ (c : Dev nD) (t : Fin cfg1.N) :
    (dat V c).Φ t.succ = inv V c (t.val + 1) t.isLt := rfl

end Cert.Kernel.Down

end
-- ==== Proof.Bits.DownBody.lean ====
/- The second launch's body meets its proof data at every grid point, and its invariant opens from and
   closes to what the launch hands over. -/
import proofs.«108341_j45956150067877_1_alg».proof.Proof.Bits.DownData
import Idealize.ShloMosaic.Lib.Pipeline.Value

set_option maxRecDepth 16384

noncomputable section

namespace Cert.Kernel.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions in closed form -/

/-- The condition of the reset branch, from the grid coordinates. -/
abbrev cond0 (i : grid1.Coords) : Prop := (Scalar.cmpi .ne (Scalar.extui (Scalar.cmpi .eq (BitVec.ofNat 32 (i 2).val) 0#32)) 0#32) = 1#1
/-- The condition of the branch that copies the accumulator out. -/
abbrev cond1 (i : grid1.Coords) : Prop := k1_cond2 i = 1#1

/-- The reset branch is taken exactly at the first point of each run of six. -/
theorem hcond0 : ∀ t : Fin cfg1.N, cond0 (grid1.coords t) ↔ t.val % 6 = 0 :=
  (by decide +kernel : ∀ t : Fin grid1.N, cond0 (grid1.coords t) ↔ t.val % 6 = 0)
/-- The copy-out branch is taken exactly at the last point of each run of six. -/
theorem hcond1 : ∀ t : Fin cfg1.N, cond1 (grid1.coords t) ↔ t.val % 6 = 5 :=
  (by decide +kernel : ∀ t : Fin grid1.N, cond1 (grid1.coords t) ↔ t.val % 6 = 5)

/-- The input windows are never idle. -/
theorem live_0 : ∀ t : Fin cfg1.N, cfg1.idle 0 (grid1.coords t) = false := fun _ => rfl
theorem live_1 : ∀ t : Fin cfg1.N, cfg1.idle 1 (grid1.coords t) = false := fun _ => rfl
/-- The output window is idle away from the last point of each run of six, -/
theorem idle_2 : ∀ t : Fin cfg1.N, ¬t.val % 6 = 5 → cfg1.idle 2 (grid1.coords t) = true :=
  (by decide +kernel : ∀ t : Fin grid1.N, ¬t.val % 6 = 5 → idle1 2 (grid1.coords t) = true)
/-- is not written back there, -/
theorem noFlush_2 (t : Fin cfg1.N) (h : ¬t.val % 6 = 5) : (cfg1.win 2).flush t = false :=
  Bool.eq_false_iff.mpr fun hf => h ((flush1_2 t).mp hf)
/-- and is live at the last point of each run of six. -/
theorem live_2 : ∀ t : Fin cfg1.N, t.val % 6 = 5 → cfg1.idle 2 (grid1.coords t) = false :=
  (by decide +kernel : ∀ t : Fin grid1.N, t.val % 6 = 5 → idle1 2 (grid1.coords t) = false)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body on any whole buffers, case by case -/

set_option maxHeartbeats 1000000 in
/-- A point that resets: whatever the accumulator held, it becomes zero plus the tiles' product. -/
theorem runA (c : Dev nD) (i : grid1.Coords)
    (arg3 : Memref sig .tc .vmem S1x512x1024 .bf16) (harg3 : arg3.IsWhole)
    (arg4 : Memref sig .tc .vmem S1x1024x2048 .f32) (harg4 : arg4.IsWhole)
    (arg5 : Memref sig .tc .vmem S1x512x2048 .f32) (harg5 : arg5.IsWhole)
    (arg6 : Memref sig .tc .vmem S512x2048 .f32) (harg6 : arg6.IsWhole)
    (hc0 : cond0 i) (hc1 : ¬cond1 i)
    (x0 : Vec F S1x512x1024 .bf16) (x1 : Vec F S1x1024x2048 .f32) (xi : Vec F S1x512x2048 .f32) (a : Vec F S512x2048 .f32)
    (E : Set ℕ) (K : PUnit → sProp 𝕄) :
    iprop(owns (c : Thread nD τ) arg3 fullShare x0 ∗ owns (c : Thread nD τ) arg4 fullShare x1
        ∗ owns (c : Thread nD τ) arg5 fullShare xi ∗ owns (c : Thread nD τ) arg6 fullShare a
        ∗ (iprop(owns (c : Thread nD τ) arg3 fullShare x0 ∗ owns (c : Thread nD τ) arg4 fullShare x1
            ∗ owns (c : Thread nD τ) arg5 fullShare xi ∗ owns (c : Thread nD τ) arg6 fullShare (k1_pay2 x0 x1 (k1_pay1 (F := F)))) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self .., View.mem_set_unit_zero hz2 inb_S512x2048_S512x2048_0_0 y⟩), View.canon_cons_unit_zero (S := S512x2048) hz2]
  simp only [View.readCov_unit_zero (S := S512x2048) _ hz2, View.readAt_eq_ld, hf0, hf1, hfs, View.ld_unit_zero (S := S1x512x1024) hz3, View.ld_unit_zero (S := S1x1024x2048) hz3, View.ld_unit_zero (S := S512x2048) hz2]

set_option maxHeartbeats 1000000 in
/-- A point that neither resets nor copies out: the accumulator becomes itself plus the tiles' product. -/
theorem runB (c : Dev nD) (i : grid1.Coords)
    (arg3 : Memref sig .tc .vmem S1x512x1024 .bf16) (harg3 : arg3.IsWhole)
    (arg4 : Memref sig .tc .vmem S1x1024x2048 .f32) (harg4 : arg4.IsWhole)
    (arg5 : Memref sig .tc .vmem S1x512x2048 .f32) (harg5 : arg5.IsWhole)
    (arg6 : Memref sig .tc .vmem S512x2048 .f32) (harg6 : arg6.IsWhole)
    (hc0 : ¬cond0 i) (hc1 : ¬cond1 i)
    (x0 : Vec F S1x512x1024 .bf16) (x1 : Vec F S1x1024x2048 .f32) (xi : Vec F S1x512x2048 .f32) (a : Vec F S512x2048 .f32)
    (E : Set ℕ) (K : PUnit → sProp 𝕄) :
    iprop(owns (c : Thread nD τ) arg3 fullShare x0 ∗ owns (c : Thread nD τ) arg4 fullShare x1
        ∗ owns (c : Thread nD τ) arg5 fullShare xi ∗ owns (c : Thread nD τ) arg6 fullShare a
        ∗ (iprop(owns (c : Thread nD τ) arg3 fullShare x0 ∗ owns (c : Thread nD τ) arg4 fullShare x1
            ∗ owns (c : Thread nD τ) arg5 fullShare xi ∗ owns (c : Thread nD τ) arg6 fullShare (k1_pay2 x0 x1 a)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons_self .., View.mem_set_unit_zero hz2 inb_S512x2048_S512x2048_0_0 y⟩), View.canon_unit_zero hz2]
  simp only [View.readAt_eq_ld, hf0, hf1, hfs, View.ld_unit_zero (S := S1x512x1024) hz3, View.ld_unit_zero (S := S1x1024x2048) hz3, View.ld_unit_zero (S := S512x2048) hz2]

set_option maxHeartbeats 1000000 in
/-- A point that copies out: the accumulator becomes itself plus the tiles' product, and the output buffer its re-laid copy. -/
theorem runC (c : Dev nD) (i : grid1.Coords)
    (arg3 : Memref sig .tc .vmem S1x512x1024 .bf16) (harg3 : arg3.IsWhole)
    (arg4 : Memref sig .tc .vmem S1x1024x2048 .f32) (harg4 : arg4.IsWhole)
    (arg5 : Memref sig .tc .vmem S1x512x2048 .f32) (harg5 : arg5.IsWhole)
    (arg6 : Memref sig .tc .vmem S512x2048 .f32) (harg6 : arg6.IsWhole)
    (hc0 : ¬cond0 i) (hc1 : cond1 i)
    (x0 : Vec F S1x512x1024 .bf16) (x1 : Vec F S1x1024x2048 .f32) (xo : Vec F S1x512x2048 .f32) (a : Vec F S512x2048 .f32)
    (E : Set ℕ) (K : PUnit → sProp 𝕄) :
    iprop(owns (c : Thread nD τ) arg3 fullShare x0 ∗ owns (c : Thread nD τ) arg4 fullShare x1
        ∗ owns (c : Thread nD τ) arg5 fullShare xo ∗ owns (c : Thread nD τ) arg6 fullShare a
        ∗ (iprop(owns (c : Thread nD τ) arg3 fullShare x0 ∗ owns (c : Thread nD τ) arg4 fullShare x1
            ∗ owns (c : Thread nD τ) arg5 fullShare (k1_pay3 (k1_pay2 x0 x1 a)) ∗ owns (c : Thread nD τ) arg6 fullShare (k1_pay2 x0 x1 a)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons_self .., View.mem_set_unit_zero hz3 inb_S1x512x2048_S1x512x2048_0_0_0 y⟩), View.canon_unit_zero hz3]
    simp only [View.readCov_unit_zero (S := S512x2048) _ hz2, View.readAt_eq_ld, hf0, hf1, hfs, View.ld_unit_zero (S := S1x512x1024) hz3, View.ld_unit_zero (S := S1x1024x2048) hz3, View.ld_unit_zero (S := S512x2048) hz2]
  iexists _; isplitr
  swap; · iexact HS
  ipureintro
  sl_unfold_words
  rw [View.read_writes_eq_canon _ _ _ (fun y => ⟨_, List.mem_cons_self .., View.mem_set_unit_zero hz2 inb_S512x2048_S512x2048_0_0 y⟩), View.canon_unit_zero hz2]
  simp only [View.readAt_eq_ld, hf0, hf1, hfs, View.ld_unit_zero (S := S1x512x1024) hz3, View.ld_unit_zero (S := S1x1024x2048) hz3, View.ld_unit_zero (S := S512x2048) hz2]

/-! ## The invariant beside what the launch hands over -/

/-- What the launch hands the region, buffer by buffer, the scratch buffer named as the accumulator's memref. -/
theorem PhiA_raw (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ d, owns (c : Thread nD τ) accBuf fullShare d)) ∗ (∃ r, prngReg c r)) := by
  unfold Pipeline.ΦA; rw [scopedRest1_eq]; simp only [accBuf, owns_whole]; rfl

/-- It yields the accumulator at some contents, the other launch's staging buffers and the generator register, -/
theorem PhiA_split (c : Dev nD) :
    (Pipeline.ΦA spec1 c : sProp 𝕄)
      ⊢ iprop((∃ d, owns (c : Thread nD τ) accBuf fullShare d) ∗ idleBufs (F := F) c ∗ (∃ r, prngReg c r)) := by
  rw [PhiA_raw]; unfold idleBufs
  iintro ⟨⟨H1, H2, H3, H4, H5, H6, H7, H8, HS⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- and is given back by them. -/
theorem PhiA_join (c : Dev nD) :
    iprop((∃ d, owns (c : Thread nD τ) accBuf fullShare d) ∗ idleBufs (F := F) c ∗ (∃ r, prngReg c r))
      ⊢ (Pipeline.ΦA spec1 c : sProp 𝕄) := by
  rw [PhiA_raw]; unfold idleBufs
  iintro ⟨HS, ⟨H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-- So the two are one proposition. -/
theorem PhiA_eq (c : Dev nD) :
    (Pipeline.ΦA spec1 c : sProp 𝕄)
      = iprop((∃ d, owns (c : Thread nD τ) accBuf fullShare d) ∗ idleBufs (F := F) c ∗ (∃ r, prngReg c r)) :=
  BI.equiv_iff.mp ⟨PhiA_split c, PhiA_join c⟩

/-! ## The body obligation, at a generic point -/

/-- Each window's current staging memref at a point, as the pipeline passes it, and its wholeness. -/
abbrev ms0 (t : Fin cfg1.N) : Memref sig .tc .vmem S1x512x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x2048 .f32 := win1_2.stage (cfg1.slots t 2)
abbrev hs2 (t : Fin cfg1.N) : (ms2 t).IsWhole := hstage1_2 ((cfg1.slots t 2).cast nbuf1_2)

/-- Each input is fetched at every point, so its current buffer holds its block. -/
theorem before_0 (c : Dev nD) (t : Fin cfg1.N) (d) : (dat V c).before 0 t d = blk V c 0 t :=
  ((dat V c).before_fetched 0 t (fetch1_0 t) d).trans (by unfold Dat.fetched Dat.blockOf blk; rw [A_eq]; try rfl)
theorem before_1 (c : Dev nD) (t : Fin cfg1.N) (d) : (dat V c).before 1 t d = blk V c 1 t :=
  ((dat V c).before_fetched 1 t (fetch1_1 t) d).trans (by unfold Dat.fetched Dat.blockOf blk; rw [A_eq]; try rfl)

/-- What the body is called with at a point, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's position in its run of six
    says which branches run; the invariant hands the body the accumulator at what the point before left
    (at anything at the first point) and takes it back at this point's value; at the last point of a run
    the output buffer ends at the accumulator re-laid, elsewhere it is handed back untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [inv_at_succ, inv_succ, inv_castSucc]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  have hN : t.val < 96 := lt_of_lt_of_eq t.isLt (show cfg1.N = 96 from N_1)
  by_cases h0 : t.val % 6 = 0
  · have h1 : ¬t.val % 6 = 5 := by omega
    rw [Dat.leavesExact_idle (dat V c) 2 t (idle_2 t h1) (noFlush_2 t h1)]
    rw [accAt_reset V c t h0]
    by_cases hz : t.val = 0
    · rw [inv_zero V c _ _ hz, PhiA_eq]
      iintro ⟨⟨⟨%a, HS⟩, Hi, Hg⟩, Ho, ⟨%d0, H0⟩, ⟨%d1, H1⟩, ⟨%d2, H2⟩⟩
      iapply (runA c (grid1.coords t) (ms0 t) (hs0 t) (ms1 t) (hs1 t) (ms2 t) (hs2 t) accBuf (Memref.isWhole_whole _)
        ((hcond0 t).mpr h0) (fun h => h1 ((hcond1 t).mp h)) (blk V c 0 t) (blk V c 1 t) ((dat V c).before 2 t d2) a Set.univ _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      iexists _; iexact H2
    · rw [inv_pos V c _ _ hz]
      iintro ⟨⟨HS, Hi, Hg⟩, Ho, ⟨%d0, H0⟩, ⟨%d1, H1⟩, ⟨%d2, H2⟩⟩
      iapply (runA c (grid1.coords t) (ms0 t) (hs0 t) (ms1 t) (hs1 t) (ms2 t) (hs2 t) accBuf (Memref.isWhole_whole _)
        ((hcond0 t).mpr h0) (fun h => h1 ((hcond1 t).mp h)) (blk V c 0 t) (blk V c 1 t) ((dat V c).before 2 t d2) _ Set.univ _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      iexists _; iexact H2
  · have hz : t.val ≠ 0 := fun e => h0 (by rw [e])
    rw [accAt_step V c t h0, inv_pos V c _ _ hz]
    by_cases h1 : t.val % 6 = 5
    · rw [show (dat V c).leavesExact 2 t = owns (c : Thread nD τ) (ms2 t) fullShare ((dat V c).after 2 t) from by
        unfold Dat.leavesExact; rw [live_2 t h1], after_2, accAt_step V c t h0]
      iintro ⟨⟨HS, Hi, Hg⟩, Ho, ⟨%d0, H0⟩, ⟨%d1, H1⟩, ⟨%d2, H2⟩⟩
      iapply (runC c (grid1.coords t) (ms0 t) (hs0 t) (ms1 t) (hs1 t) (ms2 t) (hs2 t) accBuf (Memref.isWhole_whole _)
        (fun h => h0 ((hcond0 t).mp h)) ((hcond1 t).mpr h1) (blk V c 0 t) (blk V c 1 t) ((dat V c).before 2 t d2) _ Set.univ _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      iexact H2
    · rw [Dat.leavesExact_idle (dat V c) 2 t (idle_2 t h1) (noFlush_2 t h1)]
      iintro ⟨⟨HS, Hi, Hg⟩, Ho, ⟨%d0, H0⟩, ⟨%d1, H1⟩, ⟨%d2, H2⟩⟩
      iapply (runB c (grid1.coords t) (ms0 t) (hs0 t) (ms1 t) (hs1 t) (ms2 t) (hs2 t) accBuf (Memref.isWhole_whole _)
        (fun h => h0 ((hcond0 t).mp h)) (fun h => h1 ((hcond1 t).mp h)) (blk V c 0 t) (blk V c 1 t) ((dat V c).before 2 t d2) _ Set.univ _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      iexists _; iexact H2

/-- The library's body obligation for the second launch, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : (Pipeline.ΦA spec1 c : sProp 𝕄) ⊢ (dat V c).Φ 0 := by
  rw [show (dat V c).Φ 0 = inv V c 0 (Nat.zero_le _) from rfl, inv_zero V c 0 _ rfl]

/-- After the last point the invariant gives the scoped buffers back, the accumulator's contents forgotten. -/
theorem inv_out (c : Dev nD) : (dat V c).Φ (Fin.last cfg1.N) ⊢ (Pipeline.ΦA spec1 c : sProp 𝕄) := by
  have hN : cfg1.N = 96 := N_1
  rw [show (dat V c).Φ (Fin.last cfg1.N) = inv V c (Fin.last cfg1.N).val (Nat.le_of_lt_succ (Fin.last cfg1.N).isLt) from rfl,
    inv_pos V c _ _ (by rw [Fin.val_last]; omega), PhiA_eq]
  iintro ⟨HS, Hi, Hg⟩
  isplitl [HS]; · iexists _; iexact HS
  isplitl [Hi]; · iexact Hi
  iexact Hg

end Cert.Kernel.Down

end
-- ==== Proof.Bits.Run.lean ====
/- The two launches run one after the other.

   Between @main's four items the core's unscoped buffers hold: the launch contents; those with the
   grouped tokens written (a reshape); those with the hidden array at what the first launch's
   write-backs leave; those with the result array at what the second launch's write-backs leave; and
   finally the flattened result. Each launch is entered from the buffers at one of these contents and
   left at the next. The first launch reads ONE weight array through two windows: on entry the
   array's share is cut in two halves, one per window, and on exit the halves are joined again. -/
import proofs.«108341_j45956150067877_1_alg».proof.Proof.Bits.GateUpData
import proofs.«108341_j45956150067877_1_alg».proof.Proof.Bits.DownData
import proofs.«108341_j45956150067877_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ) (ρ : Dev nD → PrngReg)

/-! ## The buffers' contents between the items -/

/-- The contents the first launch is entered with: the launch memory after the tokens are regrouped. -/
abbrev E1 : (c : Dev nD) → (b : Ref sig .tc) → Buf (Elt F) ((c : Thread nD τ).loc b) := fun c b => Gen.V1 m c b

/-- What the first launch leaves in the hidden array. -/
def o1 (c : Dev nD) : Buf (Elt F) ((c : Thread nD τ).loc main_v1) := (GateUp.dat (E1 m) c).arrAt 3 cfg0.N

/-- The buffers after the first launch: the hidden array rewritten, everything else as entered. -/
def W2 (c : Dev nD) : Valuation τ sig (Elt F) := Function.update (Gen.V1 m c) main_v1 (o1 m c)

/-- The contents the second launch is entered with. -/
abbrev E2 : (c : Dev nD) → (b : Ref sig .tc) → Buf (Elt F) ((c : Thread nD τ).loc b) := fun c b => W2 m c b

/-- What the second launch leaves in its result array. -/
def o2 (c : Dev nD) : Buf (Elt F) ((c : Thread nD τ).loc main_v2) := (Down.dat (E2 m) c).arrAt 2 cfg1.N

/-- The buffers after the second launch. -/
def W3 (c : Dev nD) : Valuation τ sig (Elt F) := Function.update (W2 m c) main_v2 (o2 m c)

/-- What the launches leave in the buffers they write, as one family. -/
def outs : Gen.Outs (F := F) := fun _ r c => W3 m c r

theorem outs_hidden (c : Dev nD) : outs m 2 main_v1 c = o1 m c := by
  unfold outs W3 W2
  rw [Function.update_of_ne (StableHlo.devRef_ne_of_ne (by decide) : (Proc.devRef .tc main_v1 : DevRef τ sig) ≠ Proc.devRef .tc main_v2),
    Function.update_self]

theorem outs_result (c : Dev nD) : outs m 3 main_v2 c = o2 m c := by
  unfold outs W3
  rw [Function.update_self]

theorem V2_eq (c : Dev nD) : Gen.V2 m (outs m) c = W2 m c := by
  show Function.update (Gen.V1 m c) main_v1 (outs m 2 main_v1 c) = _
  rw [outs_hidden]; rfl

theorem V3_eq (c : Dev nD) : Gen.V3 m (outs m) c = W3 m c := by
  show Function.update (Gen.V2 m (outs m) c) main_v2 (outs m 3 main_v2 c) = _
  rw [V2_eq, outs_result]; rfl

/-! ## The proof data family and what rides beside the buffers -/

/-- Each launch's proof data at the contents it is entered with. -/
def pdats : (p : Fin 2) → (c : Dev nD) → Dat τ (Elt F) Unit ℕ (UR sig nD τ) ℕ (cfgs p) c
  | ⟨0, _⟩ => fun c => GateUp.dat (E1 m) c
  | ⟨1, _⟩ => fun c => Down.dat (E2 m) c

abbrev 𝒱₀ : Variants := Variants.none
abbrev L : GSem nD τ sig → Finset Unit := fun _ => ∅
abbrev lv : GSem nD τ sig → Unit → ℕ := fun _ _ => 0

/-- Beside the buffers every item carries the generator register at some state and the core owing nothing. -/
abbrev R (c : Dev nD) : sProp 𝕄 := iprop((∃ r, prngReg c r) ∗ ∃ W, owes (c : Thread nD τ) (0 : CellTallies nD τ sig Unit) W)

/-! ## The second launch as a segment -/

set_option backward.isDefEq.respectTransparency.types false in
/-- The down projection over the thread state: entered from the buffers after the first launch, left with the
    result array rewritten. Its three arrays are distinct buffers, each held whole. -/
def reg1 (hb : ∀ c, BodyObligation (Down.dat (E2 m) c) (defs₀ (F := F)) Variants.none () Set.univ)
    (hin1 : ∀ c, (Pipeline.ΦA spec1 c : sProp 𝕄) ⊢ (Down.dat (E2 m) c).Φ 0)
    (hout1 : ∀ c, (Down.dat (E2 m) c).Φ (Fin.last cfg1.N) ⊢ (Pipeline.ΦA spec1 c : sProp 𝕄)) :
    RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 c)
    unfold Pipeline.ΦA
    iintro ⟨Hp, -, Hr⟩
    isplitl [Hr]; · iexact Hr
    iexact Hp
  hout c := by
    rw [Pipeline.ownSems0_none]
    refine (hout1 c).trans ?_
    unfold Pipeline.ΦA
    iintro ⟨Hr, Hp⟩
    isplitl [Hp]; · iexact Hp
    isplitr; · iempintro
    iexact Hr
  hexit c := by
    have hF : ∀ w, (pdats m 1 c).arrAt w cfg1.N = W3 m c (Pipeline.arrRef spec1 w) := fun w => by
      match w with
      | ⟨0, _⟩ =>
        refine ((Down.dat (E2 m) c).arrAt_in 0 rfl _).trans ?_
        rw [Down.A_eq]; unfold W3
        exact (Function.update_of_ne (StableHlo.devRef_ne_of_ne (by decide) : (Proc.devRef .tc (Pipeline.arrRef spec1 0) : DevRef τ sig) ≠ Proc.devRef .tc main_v2) _ _).symm
      | ⟨1, _⟩ =>
        refine ((Down.dat (E2 m) c).arrAt_in 1 rfl _).trans ?_
        rw [Down.A_eq]; unfold W3
        exact (Function.update_of_ne (StableHlo.devRef_ne_of_ne (by decide) : (Proc.devRef .tc (Pipeline.arrRef spec1 1) : DevRef τ sig) ≠ Proc.devRef .tc main_v2) _ _).symm
      | ⟨2, _⟩ =>
        show o2 m c = _
        unfold W3
        exact (Function.update_self (Proc.devRef .tc main_v2 : DevRef τ sig) (o2 m c) (W2 m c)).symm
    have hrest : ∀ b, b ∉ Finset.univ.image (Pipeline.arrRef spec1) → W3 m c b = E2 m c b := fun b hb => by
      unfold W3
      exact Function.update_of_ne (StableHlo.devRef_ne_of_ne (fun e => hb (Finset.mem_image.mpr ⟨2, Finset.mem_univ _, e.symm⟩))) _ _
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (fun b => W3 m c b) ((pdats m 1 c).arrAt · cfg1.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The first launch's arrays: one weight array behind two windows -/

/-- The core's unscoped buffers, one by one: the first launch's three arrays first, then the four it does not touch. -/
theorem unscoped_eq (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_v0) ↦{fullShare} V main_v0) ∗ (((c : Thread nD τ).loc main_arg1) ↦{fullShare} V main_arg1)
          ∗ (((c : Thread nD τ).loc main_v1) ↦{fullShare} V main_v1)
          ∗ (((c : Thread nD τ).loc main_arg0) ↦{fullShare} V main_arg0) ∗ (((c : Thread nD τ).loc main_arg2) ↦{fullShare} V main_arg2)
          ∗ (((c : Thread nD τ).loc main_v2) ↦{fullShare} V main_v2) ∗ (((c : Thread nD τ).loc main_v3) ↦{fullShare} V main_v3)) := by
  unfold unscopedBufs
  exact bigSep_eq_bigSepL_of_eq [main_v0, main_arg1, main_v1, main_arg0, main_arg2, main_v2, main_v3] (by decide) (by decide) _

/-- The first launch's arrays, window by window: the token array whole, the weight array's two halves, the hidden
    array whole. -/
theorem arrays0_eq (c : Dev nD) (V : (c : Dev nD) → (b : Ref sig .tc) → Buf (Elt F) ((c : Thread nD τ).loc b))
    (G : (w : Fin cfg0.W) → Buf (Elt F) ((cfg0.win w).arr.view.loc (c.tc : Thread nD τ))) :
    ((GateUp.dat V c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_v1) ↦{fullShare} G 3)) := by
  unfold Dat.arrays
  rw [bigSep_W0]
  rw [(arr_whole0 0).set_eq_univ, (arr_whole0 1).set_eq_univ, (arr_whole0 3).set_eq_univ]
  rfl

/-! ## The first launch as a segment -/

set_option backward.isDefEq.respectTransparency.types false in
/-- The gate/up projection over the thread state: entered from the buffers after the tokens are regrouped, left with
    the hidden array rewritten. On entry the weight array's full share is cut into the two windows' halves; on exit
    the halves, still at the entry contents, are joined. -/
def reg0 (hb : ∀ c, BodyObligation (GateUp.dat (E1 m) c) (defs₀ (F := F)) Variants.none () Set.univ) :
    RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none, ← Pipeline.unscopedBufs_held (Ix := Unit) (Name := ℕ) (U := UR sig nD τ) (Lvl := ℕ) c (Gen.V1 m c)]
    rw [unscoped_eq, unscopedRest0_eq]
    rw [show ((pdats m 0 c).arrays ((pdats m 0 c).arrAt · 0) : sProp 𝕄) = (GateUp.dat (E1 m) c).arrays (fun w => (GateUp.dat (E1 m) c).arrAt w 0) from rfl,
      arrays0_eq]
    iintro ⟨⟨⟨H0, Hw, H1, Ha0, Ha2, Hv2, Hv3⟩, Hp, HO⟩, -, -⟩
    ihave Hw2 := (pointsTo_share (PosShare.mem_left_op_right fullShare)).1 $$ Hw
    icases Hw2 with ⟨HwL, HwR⟩
    imodintro
    isplitl [H0 HwL HwR H1]
    · isplitl [H0]; · iexact H0
      isplitl [HwL]; · iexact HwL
      isplitl [HwR]; · iexact HwR
      iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha2]; · iexact Ha2
    isplitl [Hv2]; · iexact Hv2
    iexact Hv3
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have h0 : (GateUp.dat (E1 m) c).arrAt 0 cfg0.N = W2 m c main_v0 := by
      refine ((GateUp.dat (E1 m) c).arrAt_in 0 rfl _).trans ?_
      rw [GateUp.A_eq]; unfold W2
      exact (Function.update_of_ne (StableHlo.devRef_ne_of_ne (by decide) : (Proc.devRef .tc main_v0 : DevRef τ sig) ≠ Proc.devRef .tc main_v1) _ _).symm
    have h1 : (GateUp.dat (E1 m) c).arrAt 1 cfg0.N = W2 m c main_arg1 := by
      refine ((GateUp.dat (E1 m) c).arrAt_in 1 rfl _).trans ?_
      rw [GateUp.A_eq]; unfold W2
      exact (Function.update_of_ne (StableHlo.devRef_ne_of_ne (by decide) : (Proc.devRef .tc main_arg1 : DevRef τ sig) ≠ Proc.devRef .tc main_v1) _ _).symm
    have h2 : (GateUp.dat (E1 m) c).arrAt 2 cfg0.N = W2 m c main_arg1 := by
      refine ((GateUp.dat (E1 m) c).arrAt_in 2 rfl _).trans ?_
      rw [GateUp.A_eq]; unfold W2
      exact (Function.update_of_ne (StableHlo.devRef_ne_of_ne (by decide) : (Proc.devRef .tc main_arg1 : DevRef τ sig) ≠ Proc.devRef .tc main_v1) _ _).symm
    have h3 : (GateUp.dat (E1 m) c).arrAt 3 cfg0.N = W2 m c main_v1 := by
      show o1 m c = _
      unfold W2
      exact (Function.update_self (Proc.devRef .tc main_v1 : DevRef τ sig) (o1 m c) (Gen.V1 m c)).symm
    have hr : ∀ b : Ref sig .tc, b ≠ main_v1 → E1 m c b = W2 m c b := fun b hb => by
      unfold W2
      exact (Function.update_of_ne (StableHlo.devRef_ne_of_ne hb : (Proc.devRef .tc b : DevRef τ sig) ≠ Proc.devRef .tc main_v1) _ _).symm
    rw [← Pipeline.unscopedBufs_held (Ix := Unit) (Name := ℕ) (U := UR sig nD τ) (Lvl := ℕ) c (W2 m c)]
    rw [unscoped_eq, unscopedRest0_eq]
    rw [show ((pdats m 0 c).arrays ((pdats m 0 c).arrAt · (Pipeline.pin (pcfgs (F := F)) Gen.adm 0).N) : sProp 𝕄) = (GateUp.dat (E1 m) c).arrays (fun w => (GateUp.dat (E1 m) c).arrAt w cfg0.N) from rfl,
      arrays0_eq]
    rw [h0, h1, h2, h3, hr main_arg0 (by decide), hr main_arg2 (by decide), hr main_v2 (by decide), hr main_v3 (by decide)]
    iintro ⟨⟨H0, HwL, HwR, H1⟩, HO, HY, ⟨Ha0, Ha2, Hv2, Hv3⟩⟩
    ihave Hw := (pointsTo_share (PosShare.mem_left_op_right fullShare)).2 $$ [HwL HwR]
    · isplitl [HwL]; · iexact HwL
      iexact HwR
    imodintro
    isplitl [H0 Hw H1 Ha0 Ha2 Hv2 Hv3]
    · isplitl [H0]; · iexact H0
      isplitl [Hw]; · iexact Hw
      isplitl [H1]; · iexact H1
      isplitl [Ha0]; · iexact Ha0
      isplitl [Ha2]; · iexact Ha2
      isplitl [Hv2]; · iexact Hv2
      iexact Hv3
    isplitl [HY]; · iexact HY
    unfold Pipeline.Dat.owesAt Pipeline.owesWithin
    icases HO with ⟨%W, -, HO⟩; iexists W; iexact HO

/-! ## @main as segments, and the launch -/

/-- The buffers at the end: the result array flattened. -/
theorem V4_eq (c : Dev nD) : Gen.V4 m (outs m) c = StableHlo.after hostOps2 (W3 m c) := by
  show StableHlo.after hostOps2 (Gen.V3 m (outs m) c) = _
  rw [V3_eq]

-- the kit's implicit arguments are found by unifying its conclusion with this one
set_option backward.isDefEq.respectTransparency.types false in
/-- From any memory with zero counters every weakly fair execution of @main ends, and the final memory holds the
    result buffer at the last contents of the fold above and every argument as launched. -/
theorem run (hb0 : ∀ c, BodyObligation (GateUp.dat (E1 m) c) (defs₀ (F := F)) Variants.none () Set.univ)
    (hb1 : ∀ c, BodyObligation (Down.dat (E2 m) c) (defs₀ (F := F)) Variants.none () Set.univ)
    (hin1 : ∀ c, (Pipeline.ΦA spec1 c : sProp 𝕄) ⊢ (Down.dat (E2 m) c).Φ 0)
    (hout1 : ∀ c, (Down.dat (E2 m) c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_v3) = Gen.V4 m (outs m) c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m hb0) (reg1 m hb1 hin1 hout1))
    (fun c Q => by
      rewrite [main_chain c, Seg.run_eq_chain,
        show (Gen.segs m (outs m) 𝒱₀ L lv (fun _ c => R c) () (pdats m) (reg0 m hb0) (reg1 m hb1 hin1 hout1) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, Entails.of_eq (by
        show iprop(StableHlo.held (c : Thread nD τ) (Pipeline.ucRefs τ sig) (W3 m c) ∗ R c)
          = iprop(StableHlo.held (c : Thread nD τ) (Pipeline.ucRefs τ sig) (Gen.V3 m (outs m) c) ∗ R c)
        rw [V3_eq]),
      sep_mono .rfl (by iintro ⟨-, HO⟩; iexact HO)⟩)
    (hinit := ?_)
    (QY := fun c s => s.mem ((c.tc : Thread nD τ).loc main_v3) = Gen.V4 m (outs m) c main_v3
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch: the unscoped buffers at the launch contents, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last contents
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨h (Proc.devRef .tc main_v3) (Finset.mem_filter.mpr ⟨StableHlo.devRef_mem_tcRefs main_v3, by decide⟩),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c)⟩
    · iexact HSI

/-- The frame: every argument array ends as launched. -/
theorem frame (hb0 : ∀ c, BodyObligation (GateUp.dat (E1 m) c) (defs₀ (F := F)) Variants.none () Set.univ)
    (hb1 : ∀ c, BodyObligation (Down.dat (E2 m) c) (defs₀ (F := F)) Variants.none () Set.univ)
    (hin1 : ∀ c, (Pipeline.ΦA spec1 c : sProp 𝕄) ⊢ (Down.dat (E2 m) c).Φ 0)
    (hout1 : ∀ c, (Down.dat (E2 m) c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ hb0 hb1 hin1 hout1)

end Cert.Kernel.Run

end
-- ==== Proof.Ideal.GateUpData.lean ====
/- The first launch (gate/up projection and activation), as data.

   At grid point (e, t, n) the launch reads the token tile x[e, 512t .. 512t+511, :], the gate
   columns w[e, :, 512n ..] and the up columns w[e, :, 6144 + 512n ..] of ONE weight array
   (two windows on it, each holding half of the array's share), and writes the hidden tile
   h[e, 512t .., 512n ..] = (g · logistic g) · u with g, u the two tile products.
   Nothing is carried between points. -/
import proofs.«108341_j45956150067877_1_alg».proof.Proof.Gen.KernelIdeal.Launch
import proofs.«108341_j45956150067877_1_alg».proof.Proof.Gen.KernelIdeal.Skeleton
import proofs.«108341_j45956150067877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the launch is entered
variable (V : (c : Dev nD) → (b : Ref sig .tc) → Buf (Elt F) ((c : Thread nD τ).loc b))

/-- Window `w`'s block at grid point `t`, read off its array at the entry contents. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The share of its array each input window holds: the weight array is read through windows 1 and 2,
    which hold its two halves; the token array is window 0's alone. -/
def shareOf : Fin cfg0.W → PosShare TreeShare
  | ⟨0, _⟩ => fullShare
  | ⟨1, _⟩ => fullShare.left
  | ⟨2, _⟩ => fullShare.right
  | ⟨3, _⟩ => fullShare

/-- The launch's proof data on core `c`: after the body at point `t` every input buffer still holds its
    block and the output buffer holds the hidden tile computed from the three input blocks. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => k0_pay1 (blk V c 0 t) (blk V c 1 t) (blk V c 2 t)
  Φ _ := Pipeline.ΦA spec0 c
  q := shareOf
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = k0_pay1 (blk V c 0 t) (blk V c 1 t) (blk V c 2 t) := by dsimp only [dat]

theorem share_0 (c : Dev nD) : (dat V c).share 0 = fullShare := rfl
theorem share_1 (c : Dev nD) : (dat V c).share 1 = fullShare.left := rfl
theorem share_2 (c : Dev nD) : (dat V c).share 2 = fullShare.right := rfl
theorem share_3 (c : Dev nD) : (dat V c).share 3 = fullShare := rfl

end Cert.KernelIdeal.GateUp

end
-- ==== Proof.Ideal.GateUpBody.lean ====
/- The first launch's body meets its proof data at every grid point. -/
import proofs.«108341_j45956150067877_1_alg».proof.Proof.Ideal.GateUpData
import Idealize.ShloMosaic.Lib.Pipeline.Value

set_option maxRecDepth 16384

noncomputable section

namespace Cert.KernelIdeal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

/-- The token window's current buffer holds its block at every point, fetched there or not: where it is not
    fetched its block index has not moved. -/
theorem before_0 (c : Dev nD) (t : Fin cfg0.N) (d) : (dat V c).before 0 t d = blk V c 0 t :=
  ((dat V c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)

/-- The gate-weight window's current buffer holds its block at every point. -/
theorem before_1 (c : Dev nD) (t : Fin cfg0.N) (d) : (dat V c).before 1 t d = blk V c 1 t :=
  ((dat V c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)

/-- The up-weight window's current buffer holds its block at every point. -/
theorem before_2 (c : Dev nD) (t : Fin cfg0.N) (d) : (dat V c).before 2 t d = blk V c 2 t :=
  ((dat V c).before_in_eq_fetched 2 rfl (fun _ => rfl) (fun _ _ _ => rfl)
      (fun t => by rw [after_2]; unfold Dat.blockOf blk; rw [A_eq]; try rfl) t d).trans
    (by unfold Dat.fetched Dat.blockOf blk; rw [A_eq]; try rfl)

/-! ## The body's accesses: each buffer whole -/

theorem zeros3 : (![0, 0, 0] : Fin 3 → Nat) = fun _ => 0 := funext fun a => by fin_cases a <;> rfl

abbrev rTok : Rect S1x512x2048 := Rect.unit (s := S1x512x2048) ![0, 0, 0] S1x512x2048.size inb_S1x512x2048_S1x512x2048_0_0_0
abbrev rWt : Rect S1x2048x512 := Rect.unit (s := S1x2048x512) ![0, 0, 0] S1x2048x512.size inb_S1x2048x512_S1x2048x512_0_0_0
abbrev rHid : Rect S1x512x512 := Rect.unit (s := S1x512x512) ![0, 0, 0] S1x512x512.size inb_S1x512x512_S1x512x512_0_0_0

/-- The hidden tile's buffer after the body, from the three input buffers: its one store, over the whole buffer. -/
def out3 (x0 : Vec F S1x512x2048 .f32) (x1 x2 : Vec F S1x2048x512 .f32) : Vec F S1x512x512 .bf16 :=
  View.canon [⟨rHid, k0_pay1 (View.ld x0 rTok) (View.ld x1 rWt) (View.ld x2 rWt)⟩]

/-- The one store covers the buffer. -/
theorem cover3 (p0 : Vec F S1x512x512 .bf16) (y : S1x512x512.Idx) :
    ∃ pc ∈ ([⟨rHid, p0⟩] : List (View.Piece (Elt F) S1x512x512 .bf16)), y ∈ pc.1.set :=
  ⟨_, List.mem_singleton_self _, View.mem_set_unit_zero (S := S1x512x512) zeros3 inb_S1x512x512_S1x512x512_0_0_0 y⟩

/-- A whole-buffer store of a value computed from whole-buffer loads leaves that value of the buffers. -/
theorem out3_eq (x0 : Vec F S1x512x2048 .f32) (x1 x2 : Vec F S1x2048x512 .f32) :
    out3 x0 x1 x2 = k0_pay1 x0 x1 x2 := by
  unfold out3
  rw [View.canon_unit_zero zeros3, View.ld_unit_zero zeros3, View.ld_unit_zero zeros3, View.ld_unit_zero zeros3]

/-! ## The body's triple -/

set_option maxHeartbeats 1000000 in
/-- The kernel body on whole staging buffers, the inputs' at contents `x0 x1 x2` and the output's at anything, runs to
    the continuation holding the inputs' as they were and the output's at `out3` of them. -/
theorem sound_kernel (c : Dev nD) (E : Set ℕ) (i : grid0.Coords)
    (arg3 : Memref sig .tc .vmem S1x512x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x512 .bf16) (harg6 : arg6.IsWhole)
    (x0 : Vec F S1x512x2048 .f32) (x1 x2 : Vec F S1x2048x512 .f32) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ (iprop(owns (c : Thread nD τ) arg3 fullShare x0 ∗ owns (c : Thread nD τ) arg4 fullShare x1
            ∗ owns (c : Thread nD τ) arg5 fullShare x2 ∗ owns (c : Thread nD τ) arg6 fullShare (out3 x0 x1 x2)) -∗ K ⟨⟩))
      ⊢ wp frame (wpE (defs₀ (F := F)) Variants.none c none) E (cc0__gate_up_kernel i arg3 harg3 arg4 harg4 arg5 harg5 arg6 harg6) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The body obligation, at a generic point -/

/-- What the body is called with at point `t`: the invariant, what the core owes, and each window's current buffer
    at what it then holds, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the three input buffers hold their blocks, so the body's triple applies; the invariant
    and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3,
    ← out3_eq (blk V c 0 t) (blk V c 1 t) (blk V c 2 t)]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the first launch, at every point. -/
theorem body_obligation (c : Dev nD) : BodyObligation (dat (F := F) V c) (defs₀ (F := F)) Variants.none () Set.univ := fun t => by
  rw [bigSep_W0, bigSep_W0]
  exact sound_body V c t

end Cert.KernelIdeal.GateUp

end
-- ==== Proof.Ideal.DownData.lean ====
/- The second launch (down projection), as data.

   At grid point (e, t, k) the launch reads the hidden tile h[e, 512t .., 1024k ..] and the weight
   tile wd[e, 1024k .., :], and adds their product into an accumulator kept in a scratch buffer:
   the accumulator restarts from zero at k = 0 and is copied into the output block at k = 5, the one
   point of each run of six where that block is written back. -/
import proofs.«108341_j45956150067877_1_alg».proof.Proof.Gen.KernelIdeal.Launch
import proofs.«108341_j45956150067877_1_alg».proof.Proof.Gen.KernelIdeal.Skeleton
import proofs.«108341_j45956150067877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the launch is entered
variable (V : (c : Dev nD) → (b : Ref sig .tc) → Buf (Elt F) ((c : Thread nD τ).loc b))

/-- Window `w`'s block at grid point `t`, read off its array at the entry contents. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer that carries the accumulator. -/
abbrev accBuf : Memref sig .tc .vmem S512x2048 .f32 := Memref.whole cc1_scratch0

/-- The accumulator after the body at position `n`: the product of the point's two tiles added to zero
    at the first point of a run of six (`n % 6 = 0`), to what the point before left otherwise. -/
def accAt (c : Dev nD) : (n : ℕ) → n < cfg1.N → Vec F S512x2048 .f32
  | 0, hn => k1_pay2 (blk V c 0 ⟨0, hn⟩) (blk V c 1 ⟨0, hn⟩) (k1_pay1 (F := F))
  | n + 1, hn =>
    if (n + 1) % 6 = 0 then k1_pay2 (blk V c 0 ⟨n + 1, hn⟩) (blk V c 1 ⟨n + 1, hn⟩) (k1_pay1 (F := F))
    else k1_pay2 (blk V c 0 ⟨n + 1, hn⟩) (blk V c 1 ⟨n + 1, hn⟩) (accAt c n (Nat.lt_of_succ_lt hn))

theorem accAt_reset (c : Dev nD) (t : Fin cfg1.N) (h : t.val % 6 = 0) :
    accAt V c t.val t.isLt = k1_pay2 (blk V c 0 t) (blk V c 1 t) (k1_pay1 (F := F)) := by
  obtain ⟨n, hn⟩ := t
  cases n with
  | zero => rfl
  | succ n => exact if_pos h

theorem accAt_step (c : Dev nD) (t : Fin cfg1.N) (h : ¬t.val % 6 = 0) :
    accAt V c t.val t.isLt
      = k1_pay2 (blk V c 0 t) (blk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The scoped buffers the launch does not stage and does not use: the first launch's staging buffers,
    each at some contents. -/
def idleBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The launch's invariant before position `n`: before the first point every scoped buffer it does not
    stage is at anything; afterwards the scratch holds the accumulator the point before left. -/
def inv (c : Dev nD) : (n : ℕ) → n ≤ cfg1.N → sProp 𝕄
  | 0, _ => Pipeline.ΦA spec1 c
  | n + 1, hn => iprop(owns (c : Thread nD τ) accBuf fullShare (accAt V c n hn) ∗ idleBufs (F := F) c ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(owns (c : Thread nD τ) accBuf fullShare (accAt V c n hn) ∗ idleBufs (F := F) c ∗ (∃ r, prngReg c r)) := rfl

theorem inv_pos (c : Dev nD) (n : ℕ) (h : n ≤ cfg1.N) (hz : n ≠ 0) :
    inv V c n h = iprop(owns (c : Thread nD τ) accBuf fullShare (accAt V c (n - 1) (by omega)) ∗ idleBufs (F := F) c ∗ (∃ r, prngReg c r)) := by
  cases n with
  | zero => exact absurd rfl hz
  | succ n => rfl

/-- The launch's proof data on core `c`: the input buffers keep their blocks; the output buffer, at the
    points that store into it, holds the accumulator. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => k1_pay3 (accAt V c t.val t.isLt)
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = k1_pay3 (accAt V c t.val t.isLt) := by dsimp only [dat]

theorem inv_castSucc (c : Dev nD) (t : Fin cfg1.N) :
    (dat V c).Φ t.castSucc = inv V c t.val (Nat.le_of_lt t.isLt) := by
  dsimp only [dat]; simp only [Fin.coe_castSucc]

theorem inv_at_succ (c : Dev nD) (t : Fin cfg1.N) :
    (dat V c).Φ t.succ = inv V c (t.val + 1) t.isLt := rfl

end Cert.KernelIdeal.Down

end
-- ==== Proof.Ideal.DownBody.lean ====
/- The second launch's body meets its proof data at every grid point, and its invariant opens from and
   closes to what the launch hands over. -/
import proofs.«108341_j45956150067877_1_alg».proof.Proof.Ideal.DownData
import Idealize.ShloMosaic.Lib.Pipeline.Value

set_option maxRecDepth 16384

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions in closed form -/

/-- The condition of the reset branch, from the grid coordinates. -/
abbrev cond0 (i : grid1.Coords) : Prop := (Scalar.cmpi .ne (Scalar.extui (Scalar.cmpi .eq (BitVec.ofNat 32 (i 2).val) 0#32)) 0#32) = 1#1
/-- The condition of the branch that copies the accumulator out. -/
abbrev cond1 (i : grid1.Coords) : Prop := k1_cond2 i = 1#1

/-- The reset branch is taken exactly at the first point of each run of six. -/
theorem hcond0 : ∀ t : Fin cfg1.N, cond0 (grid1.coords t) ↔ t.val % 6 = 0 :=
  (by decide +kernel : ∀ t : Fin grid1.N, cond0 (grid1.coords t) ↔ t.val % 6 = 0)
/-- The copy-out branch is taken exactly at the last point of each run of six. -/
theorem hcond1 : ∀ t : Fin cfg1.N, cond1 (grid1.coords t) ↔ t.val % 6 = 5 :=
  (by decide +kernel : ∀ t : Fin grid1.N, cond1 (grid1.coords t) ↔ t.val % 6 = 5)

/-- The input windows are never idle. -/
theorem live_0 : ∀ t : Fin cfg1.N, cfg1.idle 0 (grid1.coords t) = false := fun _ => rfl
theorem live_1 : ∀ t : Fin cfg1.N, cfg1.idle 1 (grid1.coords t) = false := fun _ => rfl
/-- The output window is idle away from the last point of each run of six, -/
theorem idle_2 : ∀ t : Fin cfg1.N, ¬t.val % 6 = 5 → cfg1.idle 2 (grid1.coords t) = true :=
  (by decide +kernel : ∀ t : Fin grid1.N, ¬t.val % 6 = 5 → idle1 2 (grid1.coords t) = true)
/-- is not written back there, -/
theorem noFlush_2 (t : Fin cfg1.N) (h : ¬t.val % 6 = 5) : (cfg1.win 2).flush t = false :=
  Bool.eq_false_iff.mpr fun hf => h ((flush1_2 t).mp hf)
/-- and is live at the last point of each run of six. -/
theorem live_2 : ∀ t : Fin cfg1.N, t.val % 6 = 5 → cfg1.idle 2 (grid1.coords t) = false :=
  (by decide +kernel : ∀ t : Fin grid1.N, t.val % 6 = 5 → idle1 2 (grid1.coords t) = false)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body on any whole buffers, case by case -/

set_option maxHeartbeats 1000000 in
/-- A point that resets: whatever the accumulator held, it becomes zero plus the tiles' product. -/
theorem runA (c : Dev nD) (i : grid1.Coords)
    (arg3 : Memref sig .tc .vmem S1x512x1024 .bf16) (harg3 : arg3.IsWhole)
    (arg4 : Memref sig .tc .vmem S1x1024x2048 .f32) (harg4 : arg4.IsWhole)
    (arg5 : Memref sig .tc .vmem S1x512x2048 .f32) (harg5 : arg5.IsWhole)
    (arg6 : Memref sig .tc .vmem S512x2048 .f32) (harg6 : arg6.IsWhole)
    (hc0 : cond0 i) (hc1 : ¬cond1 i)
    (x0 : Vec F S1x512x1024 .bf16) (x1 : Vec F S1x1024x2048 .f32) (xi : Vec F S1x512x2048 .f32) (a : Vec F S512x2048 .f32)
    (E : Set ℕ) (K : PUnit → sProp 𝕄) :
    iprop(owns (c : Thread nD τ) arg3 fullShare x0 ∗ owns (c : Thread nD τ) arg4 fullShare x1
        ∗ owns (c : Thread nD τ) arg5 fullShare xi ∗ owns (c : Thread nD τ) arg6 fullShare a
        ∗ (iprop(owns (c : Thread nD τ) arg3 fullShare x0 ∗ owns (c : Thread nD τ) arg4 fullShare x1
            ∗ owns (c : Thread nD τ) arg5 fullShare xi ∗ owns (c : Thread nD τ) arg6 fullShare (k1_pay2 x0 x1 (k1_pay1 (F := F)))) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self .., View.mem_set_unit_zero hz2 inb_S512x2048_S512x2048_0_0 y⟩), View.canon_cons_unit_zero (S := S512x2048) hz2]
  simp only [View.readCov_unit_zero (S := S512x2048) _ hz2, View.readAt_eq_ld, hf0, hf1, hfs, View.ld_unit_zero (S := S1x512x1024) hz3, View.ld_unit_zero (S := S1x1024x2048) hz3, View.ld_unit_zero (S := S512x2048) hz2]

set_option maxHeartbeats 1000000 in
/-- A point that neither resets nor copies out: the accumulator becomes itself plus the tiles' product. -/
theorem runB (c : Dev nD) (i : grid1.Coords)
    (arg3 : Memref sig .tc .vmem S1x512x1024 .bf16) (harg3 : arg3.IsWhole)
    (arg4 : Memref sig .tc .vmem S1x1024x2048 .f32) (harg4 : arg4.IsWhole)
    (arg5 : Memref sig .tc .vmem S1x512x2048 .f32) (harg5 : arg5.IsWhole)
    (arg6 : Memref sig .tc .vmem S512x2048 .f32) (harg6 : arg6.IsWhole)
    (hc0 : ¬cond0 i) (hc1 : ¬cond1 i)
    (x0 : Vec F S1x512x1024 .bf16) (x1 : Vec F S1x1024x2048 .f32) (xi : Vec F S1x512x2048 .f32) (a : Vec F S512x2048 .f32)
    (E : Set ℕ) (K : PUnit → sProp 𝕄) :
    iprop(owns (c : Thread nD τ) arg3 fullShare x0 ∗ owns (c : Thread nD τ) arg4 fullShare x1
        ∗ owns (c : Thread nD τ) arg5 fullShare xi ∗ owns (c : Thread nD τ) arg6 fullShare a
        ∗ (iprop(owns (c : Thread nD τ) arg3 fullShare x0 ∗ owns (c : Thread nD τ) arg4 fullShare x1
            ∗ owns (c : Thread nD τ) arg5 fullShare xi ∗ owns (c : Thread nD τ) arg6 fullShare (k1_pay2 x0 x1 a)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons_self .., View.mem_set_unit_zero hz2 inb_S512x2048_S512x2048_0_0 y⟩), View.canon_unit_zero hz2]
  simp only [View.readAt_eq_ld, hf0, hf1, hfs, View.ld_unit_zero (S := S1x512x1024) hz3, View.ld_unit_zero (S := S1x1024x2048) hz3, View.ld_unit_zero (S := S512x2048) hz2]

set_option maxHeartbeats 1000000 in
/-- A point that copies out: the accumulator becomes itself plus the tiles' product, and the output buffer its re-laid copy. -/
theorem runC (c : Dev nD) (i : grid1.Coords)
    (arg3 : Memref sig .tc .vmem S1x512x1024 .bf16) (harg3 : arg3.IsWhole)
    (arg4 : Memref sig .tc .vmem S1x1024x2048 .f32) (harg4 : arg4.IsWhole)
    (arg5 : Memref sig .tc .vmem S1x512x2048 .f32) (harg5 : arg5.IsWhole)
    (arg6 : Memref sig .tc .vmem S512x2048 .f32) (harg6 : arg6.IsWhole)
    (hc0 : ¬cond0 i) (hc1 : cond1 i)
    (x0 : Vec F S1x512x1024 .bf16) (x1 : Vec F S1x1024x2048 .f32) (xo : Vec F S1x512x2048 .f32) (a : Vec F S512x2048 .f32)
    (E : Set ℕ) (K : PUnit → sProp 𝕄) :
    iprop(owns (c : Thread nD τ) arg3 fullShare x0 ∗ owns (c : Thread nD τ) arg4 fullShare x1
        ∗ owns (c : Thread nD τ) arg5 fullShare xo ∗ owns (c : Thread nD τ) arg6 fullShare a
        ∗ (iprop(owns (c : Thread nD τ) arg3 fullShare x0 ∗ owns (c : Thread nD τ) arg4 fullShare x1
            ∗ owns (c : Thread nD τ) arg5 fullShare (k1_pay3 (k1_pay2 x0 x1 a)) ∗ owns (c : Thread nD τ) arg6 fullShare (k1_pay2 x0 x1 a)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons_self .., View.mem_set_unit_zero hz3 inb_S1x512x2048_S1x512x2048_0_0_0 y⟩), View.canon_unit_zero hz3]
    simp only [View.readCov_unit_zero (S := S512x2048) _ hz2, View.readAt_eq_ld, hf0, hf1, hfs, View.ld_unit_zero (S := S1x512x1024) hz3, View.ld_unit_zero (S := S1x1024x2048) hz3, View.ld_unit_zero (S := S512x2048) hz2]
  iexists _; isplitr
  swap; · iexact HS
  ipureintro
  sl_unfold_words
  rw [View.read_writes_eq_canon _ _ _ (fun y => ⟨_, List.mem_cons_self .., View.mem_set_unit_zero hz2 inb_S512x2048_S512x2048_0_0 y⟩), View.canon_unit_zero hz2]
  simp only [View.readAt_eq_ld, hf0, hf1, hfs, View.ld_unit_zero (S := S1x512x1024) hz3, View.ld_unit_zero (S := S1x1024x2048) hz3, View.ld_unit_zero (S := S512x2048) hz2]

/-! ## The invariant beside what the launch hands over -/

/-- What the launch hands the region, buffer by buffer, the scratch buffer named as the accumulator's memref. -/
theorem PhiA_raw (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ d, owns (c : Thread nD τ) accBuf fullShare d)) ∗ (∃ r, prngReg c r)) := by
  unfold Pipeline.ΦA; rw [scopedRest1_eq]; simp only [accBuf, owns_whole]; rfl

/-- It yields the accumulator at some contents, the other launch's staging buffers and the generator register, -/
theorem PhiA_split (c : Dev nD) :
    (Pipeline.ΦA spec1 c : sProp 𝕄)
      ⊢ iprop((∃ d, owns (c : Thread nD τ) accBuf fullShare d) ∗ idleBufs (F := F) c ∗ (∃ r, prngReg c r)) := by
  rw [PhiA_raw]; unfold idleBufs
  iintro ⟨⟨H1, H2, H3, H4, H5, H6, H7, H8, HS⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- and is given back by them. -/
theorem PhiA_join (c : Dev nD) :
    iprop((∃ d, owns (c : Thread nD τ) accBuf fullShare d) ∗ idleBufs (F := F) c ∗ (∃ r, prngReg c r))
      ⊢ (Pipeline.ΦA spec1 c : sProp 𝕄) := by
  rw [PhiA_raw]; unfold idleBufs
  iintro ⟨HS, ⟨H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-- So the two are one proposition. -/
theorem PhiA_eq (c : Dev nD) :
    (Pipeline.ΦA spec1 c : sProp 𝕄)
      = iprop((∃ d, owns (c : Thread nD τ) accBuf fullShare d) ∗ idleBufs (F := F) c ∗ (∃ r, prngReg c r)) :=
  BI.equiv_iff.mp ⟨PhiA_split c, PhiA_join c⟩

/-! ## The body obligation, at a generic point -/

/-- Each window's current staging memref at a point, as the pipeline passes it, and its wholeness. -/
abbrev ms0 (t : Fin cfg1.N) : Memref sig .tc .vmem S1x512x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x2048 .f32 := win1_2.stage (cfg1.slots t 2)
abbrev hs2 (t : Fin cfg1.N) : (ms2 t).IsWhole := hstage1_2 ((cfg1.slots t 2).cast nbuf1_2)

/-- Each input is fetched at every point, so its current buffer holds its block. -/
theorem before_0 (c : Dev nD) (t : Fin cfg1.N) (d) : (dat V c).before 0 t d = blk V c 0 t :=
  ((dat V c).before_fetched 0 t (fetch1_0 t) d).trans (by unfold Dat.fetched Dat.blockOf blk; rw [A_eq]; try rfl)
theorem before_1 (c : Dev nD) (t : Fin cfg1.N) (d) : (dat V c).before 1 t d = blk V c 1 t :=
  ((dat V c).before_fetched 1 t (fetch1_1 t) d).trans (by unfold Dat.fetched Dat.blockOf blk; rw [A_eq]; try rfl)

/-- What the body is called with at a point, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's position in its run of six
    says which branches run; the invariant hands the body the accumulator at what the point before left
    (at anything at the first point) and takes it back at this point's value; at the last point of a run
    the output buffer ends at the accumulator re-laid, elsewhere it is handed back untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [inv_at_succ, inv_succ, inv_castSucc]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  have hN : t.val < 96 := lt_of_lt_of_eq t.isLt (show cfg1.N = 96 from N_1)
  by_cases h0 : t.val % 6 = 0
  · have h1 : ¬t.val % 6 = 5 := by omega
    rw [Dat.leavesExact_idle (dat V c) 2 t (idle_2 t h1) (noFlush_2 t h1)]
    rw [accAt_reset V c t h0]
    by_cases hz : t.val = 0
    · rw [inv_zero V c _ _ hz, PhiA_eq]
      iintro ⟨⟨⟨%a, HS⟩, Hi, Hg⟩, Ho, ⟨%d0, H0⟩, ⟨%d1, H1⟩, ⟨%d2, H2⟩⟩
      iapply (runA c (grid1.coords t) (ms0 t) (hs0 t) (ms1 t) (hs1 t) (ms2 t) (hs2 t) accBuf (Memref.isWhole_whole _)
        ((hcond0 t).mpr h0) (fun h => h1 ((hcond1 t).mp h)) (blk V c 0 t) (blk V c 1 t) ((dat V c).before 2 t d2) a Set.univ _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      iexists _; iexact H2
    · rw [inv_pos V c _ _ hz]
      iintro ⟨⟨HS, Hi, Hg⟩, Ho, ⟨%d0, H0⟩, ⟨%d1, H1⟩, ⟨%d2, H2⟩⟩
      iapply (runA c (grid1.coords t) (ms0 t) (hs0 t) (ms1 t) (hs1 t) (ms2 t) (hs2 t) accBuf (Memref.isWhole_whole _)
        ((hcond0 t).mpr h0) (fun h => h1 ((hcond1 t).mp h)) (blk V c 0 t) (blk V c 1 t) ((dat V c).before 2 t d2) _ Set.univ _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      iexists _; iexact H2
  · have hz : t.val ≠ 0 := fun e => h0 (by rw [e])
    rw [accAt_step V c t h0, inv_pos V c _ _ hz]
    by_cases h1 : t.val % 6 = 5
    · rw [show (dat V c).leavesExact 2 t = owns (c : Thread nD τ) (ms2 t) fullShare ((dat V c).after 2 t) from by
        unfold Dat.leavesExact; rw [live_2 t h1], after_2, accAt_step V c t h0]
      iintro ⟨⟨HS, Hi, Hg⟩, Ho, ⟨%d0, H0⟩, ⟨%d1, H1⟩, ⟨%d2, H2⟩⟩
      iapply (runC c (grid1.coords t) (ms0 t) (hs0 t) (ms1 t) (hs1 t) (ms2 t) (hs2 t) accBuf (Memref.isWhole_whole _)
        (fun h => h0 ((hcond0 t).mp h)) ((hcond1 t).mpr h1) (blk V c 0 t) (blk V c 1 t) ((dat V c).before 2 t d2) _ Set.univ _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      iexact H2
    · rw [Dat.leavesExact_idle (dat V c) 2 t (idle_2 t h1) (noFlush_2 t h1)]
      iintro ⟨⟨HS, Hi, Hg⟩, Ho, ⟨%d0, H0⟩, ⟨%d1, H1⟩, ⟨%d2, H2⟩⟩
      iapply (runB c (grid1.coords t) (ms0 t) (hs0 t) (ms1 t) (hs1 t) (ms2 t) (hs2 t) accBuf (Memref.isWhole_whole _)
        (fun h => h0 ((hcond0 t).mp h)) (fun h => h1 ((hcond1 t).mp h)) (blk V c 0 t) (blk V c 1 t) ((dat V c).before 2 t d2) _ Set.univ _)
      isplitl [H0]; · iexact H0
      isplitl [H1]; · iexact H1
      isplitl [H2]; · iexact H2
      isplitl [HS]; · iexact HS
      iintro ⟨H0, H1, H2, HS⟩
      isplitl [HS Hi Hg]
      · isplitl [HS]; · iexact HS
        isplitl [Hi]; · iexact Hi
        iexact Hg
      isplitl [Ho]; · iexact Ho
      isplitl [H0]; · iexact H0
      isplitl [H1]; · iexact H1
      iexists _; iexact H2

/-- The library's body obligation for the second launch, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : (Pipeline.ΦA spec1 c : sProp 𝕄) ⊢ (dat V c).Φ 0 := by
  rw [show (dat V c).Φ 0 = inv V c 0 (Nat.zero_le _) from rfl, inv_zero V c 0 _ rfl]

/-- After the last point the invariant gives the scoped buffers back, the accumulator's contents forgotten. -/
theorem inv_out (c : Dev nD) : (dat V c).Φ (Fin.last cfg1.N) ⊢ (Pipeline.ΦA spec1 c : sProp 𝕄) := by
  have hN : cfg1.N = 96 := N_1
  rw [show (dat V c).Φ (Fin.last cfg1.N) = inv V c (Fin.last cfg1.N).val (Nat.le_of_lt_succ (Fin.last cfg1.N).isLt) from rfl,
    inv_pos V c _ _ (by rw [Fin.val_last]; omega), PhiA_eq]
  iintro ⟨HS, Hi, Hg⟩
  isplitl [HS]; · iexists _; iexact HS
  isplitl [Hi]; · iexact Hi
  iexact Hg

end Cert.KernelIdeal.Down

end
-- ==== Proof.Ideal.Run.lean ====
/- The two launches run one after the other.

   Between @main's four items the core's unscoped buffers hold: the launch contents; those with the
   grouped tokens written (a reshape); those with the hidden array at what the first launch's
   write-backs leave; those with the result array at what the second launch's write-backs leave; and
   finally the flattened result. Each launch is entered from the buffers at one of these contents and
   left at the next. The first launch reads ONE weight array through two windows: on entry the
   array's share is cut in two halves, one per window, and on exit the halves are joined again. -/
import proofs.«108341_j45956150067877_1_alg».proof.Proof.Ideal.GateUpData
import proofs.«108341_j45956150067877_1_alg».proof.Proof.Ideal.DownData
import proofs.«108341_j45956150067877_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.Pipeline (Seg HostSeg RegionSeg)

variable (m : (ℓ : Loc nD τ sig) → Buf (Elt F) ℓ) (ρ : Dev nD → PrngReg)

/-! ## The buffers' contents between the items -/

/-- The contents the first launch is entered with: the launch memory after the tokens are regrouped. -/
abbrev E1 : (c : Dev nD) → (b : Ref sig .tc) → Buf (Elt F) ((c : Thread nD τ).loc b) := fun c b => Gen.V1 m c b

/-- What the first launch leaves in the hidden array. -/
def o1 (c : Dev nD) : Buf (Elt F) ((c : Thread nD τ).loc main_v1) := (GateUp.dat (E1 m) c).arrAt 3 cfg0.N

/-- The buffers after the first launch: the hidden array rewritten, everything else as entered. -/
def W2 (c : Dev nD) : Valuation τ sig (Elt F) := Function.update (Gen.V1 m c) main_v1 (o1 m c)

/-- The contents the second launch is entered with. -/
abbrev E2 : (c : Dev nD) → (b : Ref sig .tc) → Buf (Elt F) ((c : Thread nD τ).loc b) := fun c b => W2 m c b

/-- What the second launch leaves in its result array. -/
def o2 (c : Dev nD) : Buf (Elt F) ((c : Thread nD τ).loc main_v2) := (Down.dat (E2 m) c).arrAt 2 cfg1.N

/-- The buffers after the second launch. -/
def W3 (c : Dev nD) : Valuation τ sig (Elt F) := Function.update (W2 m c) main_v2 (o2 m c)

/-- What the launches leave in the buffers they write, as one family. -/
def outs : Gen.Outs (F := F) := fun _ r c => W3 m c r

theorem outs_hidden (c : Dev nD) : outs m 2 main_v1 c = o1 m c := by
  unfold outs W3 W2
  rw [Function.update_of_ne (StableHlo.devRef_ne_of_ne (by decide) : (Proc.devRef .tc main_v1 : DevRef τ sig) ≠ Proc.devRef .tc main_v2),
    Function.update_self]

theorem outs_result (c : Dev nD) : outs m 3 main_v2 c = o2 m c := by
  unfold outs W3
  rw [Function.update_self]

theorem V2_eq (c : Dev nD) : Gen.V2 m (outs m) c = W2 m c := by
  show Function.update (Gen.V1 m c) main_v1 (outs m 2 main_v1 c) = _
  rw [outs_hidden]; rfl

theorem V3_eq (c : Dev nD) : Gen.V3 m (outs m) c = W3 m c := by
  show Function.update (Gen.V2 m (outs m) c) main_v2 (outs m 3 main_v2 c) = _
  rw [V2_eq, outs_result]; rfl

/-! ## The proof data family and what rides beside the buffers -/

/-- Each launch's proof data at the contents it is entered with. -/
def pdats : (p : Fin 2) → (c : Dev nD) → Dat τ (Elt F) Unit ℕ (UR sig nD τ) ℕ (cfgs p) c
  | ⟨0, _⟩ => fun c => GateUp.dat (E1 m) c
  | ⟨1, _⟩ => fun c => Down.dat (E2 m) c

abbrev 𝒱₀ : Variants := Variants.none
abbrev L : GSem nD τ sig → Finset Unit := fun _ => ∅
abbrev lv : GSem nD τ sig → Unit → ℕ := fun _ _ => 0

/-- Beside the buffers every item carries the generator register at some state and the core owing nothing. -/
abbrev R (c : Dev nD) : sProp 𝕄 := iprop((∃ r, prngReg c r) ∗ ∃ W, owes (c : Thread nD τ) (0 : CellTallies nD τ sig Unit) W)

/-! ## The second launch as a segment -/

set_option backward.isDefEq.respectTransparency.types false in
/-- The down projection over the thread state: entered from the buffers after the first launch, left with the
    result array rewritten. Its three arrays are distinct buffers, each held whole. -/
def reg1 (hb : ∀ c, BodyObligation (Down.dat (E2 m) c) (defs₀ (F := F)) Variants.none () Set.univ)
    (hin1 : ∀ c, (Pipeline.ΦA spec1 c : sProp 𝕄) ⊢ (Down.dat (E2 m) c).Φ 0)
    (hout1 : ∀ c, (Down.dat (E2 m) c).Φ (Fin.last cfg1.N) ⊢ (Pipeline.ΦA spec1 c : sProp 𝕄)) :
    RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 c)
    unfold Pipeline.ΦA
    iintro ⟨Hp, -, Hr⟩
    isplitl [Hr]; · iexact Hr
    iexact Hp
  hout c := by
    rw [Pipeline.ownSems0_none]
    refine (hout1 c).trans ?_
    unfold Pipeline.ΦA
    iintro ⟨Hr, Hp⟩
    isplitl [Hp]; · iexact Hp
    isplitr; · iempintro
    iexact Hr
  hexit c := by
    have hF : ∀ w, (pdats m 1 c).arrAt w cfg1.N = W3 m c (Pipeline.arrRef spec1 w) := fun w => by
      match w with
      | ⟨0, _⟩ =>
        refine ((Down.dat (E2 m) c).arrAt_in 0 rfl _).trans ?_
        rw [Down.A_eq]; unfold W3
        exact (Function.update_of_ne (StableHlo.devRef_ne_of_ne (by decide) : (Proc.devRef .tc (Pipeline.arrRef spec1 0) : DevRef τ sig) ≠ Proc.devRef .tc main_v2) _ _).symm
      | ⟨1, _⟩ =>
        refine ((Down.dat (E2 m) c).arrAt_in 1 rfl _).trans ?_
        rw [Down.A_eq]; unfold W3
        exact (Function.update_of_ne (StableHlo.devRef_ne_of_ne (by decide) : (Proc.devRef .tc (Pipeline.arrRef spec1 1) : DevRef τ sig) ≠ Proc.devRef .tc main_v2) _ _).symm
      | ⟨2, _⟩ =>
        show o2 m c = _
        unfold W3
        exact (Function.update_self (Proc.devRef .tc main_v2 : DevRef τ sig) (o2 m c) (W2 m c)).symm
    have hrest : ∀ b, b ∉ Finset.univ.image (Pipeline.arrRef spec1) → W3 m c b = E2 m c b := fun b hb => by
      unfold W3
      exact Function.update_of_ne (StableHlo.devRef_ne_of_ne (fun e => hb (Finset.mem_image.mpr ⟨2, Finset.mem_univ _, e.symm⟩))) _ _
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (fun b => W3 m c b) ((pdats m 1 c).arrAt · cfg1.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The first launch's arrays: one weight array behind two windows -/

/-- The core's unscoped buffers, one by one: the first launch's three arrays first, then the four it does not touch. -/
theorem unscoped_eq (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_v0) ↦{fullShare} V main_v0) ∗ (((c : Thread nD τ).loc main_arg1) ↦{fullShare} V main_arg1)
          ∗ (((c : Thread nD τ).loc main_v1) ↦{fullShare} V main_v1)
          ∗ (((c : Thread nD τ).loc main_arg0) ↦{fullShare} V main_arg0) ∗ (((c : Thread nD τ).loc main_arg2) ↦{fullShare} V main_arg2)
          ∗ (((c : Thread nD τ).loc main_v2) ↦{fullShare} V main_v2) ∗ (((c : Thread nD τ).loc main_v3) ↦{fullShare} V main_v3)) := by
  unfold unscopedBufs
  exact bigSep_eq_bigSepL_of_eq [main_v0, main_arg1, main_v1, main_arg0, main_arg2, main_v2, main_v3] (by decide) (by decide) _

/-- The first launch's arrays, window by window: the token array whole, the weight array's two halves, the hidden
    array whole. -/
theorem arrays0_eq (c : Dev nD) (V : (c : Dev nD) → (b : Ref sig .tc) → Buf (Elt F) ((c : Thread nD τ).loc b))
    (G : (w : Fin cfg0.W) → Buf (Elt F) ((cfg0.win w).arr.view.loc (c.tc : Thread nD τ))) :
    ((GateUp.dat V c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_v1) ↦{fullShare} G 3)) := by
  unfold Dat.arrays
  rw [bigSep_W0]
  rw [(arr_whole0 0).set_eq_univ, (arr_whole0 1).set_eq_univ, (arr_whole0 3).set_eq_univ]
  rfl

/-! ## The first launch as a segment -/

set_option backward.isDefEq.respectTransparency.types false in
/-- The gate/up projection over the thread state: entered from the buffers after the tokens are regrouped, left with
    the hidden array rewritten. On entry the weight array's full share is cut into the two windows' halves; on exit
    the halves, still at the entry contents, are joined. -/
def reg0 (hb : ∀ c, BodyObligation (GateUp.dat (E1 m) c) (defs₀ (F := F)) Variants.none () Set.univ) :
    RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none, ← Pipeline.unscopedBufs_held (Ix := Unit) (Name := ℕ) (U := UR sig nD τ) (Lvl := ℕ) c (Gen.V1 m c)]
    rw [unscoped_eq, unscopedRest0_eq]
    rw [show ((pdats m 0 c).arrays ((pdats m 0 c).arrAt · 0) : sProp 𝕄) = (GateUp.dat (E1 m) c).arrays (fun w => (GateUp.dat (E1 m) c).arrAt w 0) from rfl,
      arrays0_eq]
    iintro ⟨⟨⟨H0, Hw, H1, Ha0, Ha2, Hv2, Hv3⟩, Hp, HO⟩, -, -⟩
    ihave Hw2 := (pointsTo_share (PosShare.mem_left_op_right fullShare)).1 $$ Hw
    icases Hw2 with ⟨HwL, HwR⟩
    imodintro
    isplitl [H0 HwL HwR H1]
    · isplitl [H0]; · iexact H0
      isplitl [HwL]; · iexact HwL
      isplitl [HwR]; · iexact HwR
      iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha2]; · iexact Ha2
    isplitl [Hv2]; · iexact Hv2
    iexact Hv3
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have h0 : (GateUp.dat (E1 m) c).arrAt 0 cfg0.N = W2 m c main_v0 := by
      refine ((GateUp.dat (E1 m) c).arrAt_in 0 rfl _).trans ?_
      rw [GateUp.A_eq]; unfold W2
      exact (Function.update_of_ne (StableHlo.devRef_ne_of_ne (by decide) : (Proc.devRef .tc main_v0 : DevRef τ sig) ≠ Proc.devRef .tc main_v1) _ _).symm
    have h1 : (GateUp.dat (E1 m) c).arrAt 1 cfg0.N = W2 m c main_arg1 := by
      refine ((GateUp.dat (E1 m) c).arrAt_in 1 rfl _).trans ?_
      rw [GateUp.A_eq]; unfold W2
      exact (Function.update_of_ne (StableHlo.devRef_ne_of_ne (by decide) : (Proc.devRef .tc main_arg1 : DevRef τ sig) ≠ Proc.devRef .tc main_v1) _ _).symm
    have h2 : (GateUp.dat (E1 m) c).arrAt 2 cfg0.N = W2 m c main_arg1 := by
      refine ((GateUp.dat (E1 m) c).arrAt_in 2 rfl _).trans ?_
      rw [GateUp.A_eq]; unfold W2
      exact (Function.update_of_ne (StableHlo.devRef_ne_of_ne (by decide) : (Proc.devRef .tc main_arg1 : DevRef τ sig) ≠ Proc.devRef .tc main_v1) _ _).symm
    have h3 : (GateUp.dat (E1 m) c).arrAt 3 cfg0.N = W2 m c main_v1 := by
      show o1 m c = _
      unfold W2
      exact (Function.update_self (Proc.devRef .tc main_v1 : DevRef τ sig) (o1 m c) (Gen.V1 m c)).symm
    have hr : ∀ b : Ref sig .tc, b ≠ main_v1 → E1 m c b = W2 m c b := fun b hb => by
      unfold W2
      exact (Function.update_of_ne (StableHlo.devRef_ne_of_ne hb : (Proc.devRef .tc b : DevRef τ sig) ≠ Proc.devRef .tc main_v1) _ _).symm
    rw [← Pipeline.unscopedBufs_held (Ix := Unit) (Name := ℕ) (U := UR sig nD τ) (Lvl := ℕ) c (W2 m c)]
    rw [unscoped_eq, unscopedRest0_eq]
    rw [show ((pdats m 0 c).arrays ((pdats m 0 c).arrAt · (Pipeline.pin (pcfgs (F := F)) Gen.adm 0).N) : sProp 𝕄) = (GateUp.dat (E1 m) c).arrays (fun w => (GateUp.dat (E1 m) c).arrAt w cfg0.N) from rfl,
      arrays0_eq]
    rw [h0, h1, h2, h3, hr main_arg0 (by decide), hr main_arg2 (by decide), hr main_v2 (by decide), hr main_v3 (by decide)]
    iintro ⟨⟨H0, HwL, HwR, H1⟩, HO, HY, ⟨Ha0, Ha2, Hv2, Hv3⟩⟩
    ihave Hw := (pointsTo_share (PosShare.mem_left_op_right fullShare)).2 $$ [HwL HwR]
    · isplitl [HwL]; · iexact HwL
      iexact HwR
    imodintro
    isplitl [H0 Hw H1 Ha0 Ha2 Hv2 Hv3]
    · isplitl [H0]; · iexact H0
      isplitl [Hw]; · iexact Hw
      isplitl [H1]; · iexact H1
      isplitl [Ha0]; · iexact Ha0
      isplitl [Ha2]; · iexact Ha2
      isplitl [Hv2]; · iexact Hv2
      iexact Hv3
    isplitl [HY]; · iexact HY
    unfold Pipeline.Dat.owesAt Pipeline.owesWithin
    icases HO with ⟨%W, -, HO⟩; iexists W; iexact HO

/-! ## @main as segments, and the launch -/

/-- The buffers at the end: the result array flattened. -/
theorem V4_eq (c : Dev nD) : Gen.V4 m (outs m) c = StableHlo.after hostOps2 (W3 m c) := by
  show StableHlo.after hostOps2 (Gen.V3 m (outs m) c) = _
  rw [V3_eq]

-- the kit's implicit arguments are found by unifying its conclusion with this one
set_option backward.isDefEq.respectTransparency.types false in
/-- From any memory with zero counters every weakly fair execution of @main ends, and the final memory holds the
    result buffer at the last contents of the fold above and every argument as launched. -/
theorem run (hb0 : ∀ c, BodyObligation (GateUp.dat (E1 m) c) (defs₀ (F := F)) Variants.none () Set.univ)
    (hb1 : ∀ c, BodyObligation (Down.dat (E2 m) c) (defs₀ (F := F)) Variants.none () Set.univ)
    (hin1 : ∀ c, (Pipeline.ΦA spec1 c : sProp 𝕄) ⊢ (Down.dat (E2 m) c).Φ 0)
    (hout1 : ∀ c, (Down.dat (E2 m) c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_v3) = Gen.V4 m (outs m) c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m hb0) (reg1 m hb1 hin1 hout1))
    (fun c Q => by
      rewrite [main_chain c, Seg.run_eq_chain,
        show (Gen.segs m (outs m) 𝒱₀ L lv (fun _ c => R c) () (pdats m) (reg0 m hb0) (reg1 m hb1 hin1 hout1) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, Entails.of_eq (by
        show iprop(StableHlo.held (c : Thread nD τ) (Pipeline.ucRefs τ sig) (W3 m c) ∗ R c)
          = iprop(StableHlo.held (c : Thread nD τ) (Pipeline.ucRefs τ sig) (Gen.V3 m (outs m) c) ∗ R c)
        rw [V3_eq]),
      sep_mono .rfl (by iintro ⟨-, HO⟩; iexact HO)⟩)
    (hinit := ?_)
    (QY := fun c s => s.mem ((c.tc : Thread nD τ).loc main_v3) = Gen.V4 m (outs m) c main_v3
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch: the unscoped buffers at the launch contents, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last contents
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨h (Proc.devRef .tc main_v3) (Finset.mem_filter.mpr ⟨StableHlo.devRef_mem_tcRefs main_v3, by decide⟩),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c)⟩
    · iexact HSI

/-- The frame: every argument array ends as launched. -/
theorem frame (hb0 : ∀ c, BodyObligation (GateUp.dat (E1 m) c) (defs₀ (F := F)) Variants.none () Set.univ)
    (hb1 : ∀ c, BodyObligation (Down.dat (E2 m) c) (defs₀ (F := F)) Variants.none () Set.univ)
    (hin1 : ∀ c, (Pipeline.ΦA spec1 c : sProp 𝕄) ⊢ (Down.dat (E2 m) c).Φ 0)
    (hout1 : ∀ c, (Down.dat (E2 m) c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ hb0 hb1 hin1 hout1)

end Cert.KernelIdeal.Run

end
-- ==== Proof.Spec.lean ====
/- The expert feed-forward block as plain sums over the extended reals.

   For each expert `e` and token `t`, the fused projection has columns `f < 12288`:
   `proj x w e t f = Σ_d x[e,t,d] · w[e,d,f]`.  Column `i < 6144` is the gate, column
   `6144 + i` the matching up-projection; the hidden activation is
   `(g · logistic g) · u` and the result is `Σ_i hidden[e,t,i] · wd[e,i,d]`. -/
import Idealize.ShloMosaic.PureOps.Ideal
import Idealize.ShloMosaic.Lib.ValueIdx

noncomputable section

namespace Cert.Swiglu

open Idealize.ShloMosaic Idealize.ShloMosaic.ValueIdx

/-- Tokens grouped by expert, and the result: 8 experts × 1024 tokens × 2048 features. -/
abbrev TokShape : Shape := ⟨3, ![8, 1024, 2048]⟩
/-- The fused gate/up weights: 8 × 2048 × (2 · 6144). -/
abbrev GateUpShape : Shape := ⟨3, ![8, 2048, 12288]⟩
/-- The hidden activation: 8 × 1024 × 6144. -/
abbrev HidShape : Shape := ⟨3, ![8, 1024, 6144]⟩
/-- The down-projection weights: 8 × 6144 × 2048. -/
abbrev DownShape : Shape := ⟨3, ![8, 6144, 2048]⟩
/-- The flat token matrix: 8192 × 2048. -/
abbrev FlatShape : Shape := ⟨2, ![8192, 2048]⟩

/-- The gate column of hidden unit `i`. -/
def gateCol (i : Fin 6144) : Fin 12288 := ⟨i.val, by omega⟩
/-- The up-projection column of hidden unit `i`. -/
def upCol (i : Fin 6144) : Fin 12288 := ⟨6144 + i.val, by omega⟩

/-- One entry of the fused projection `x · w`. -/
def proj (x : TokShape.Idx → EReal) (w : GateUpShape.Idx → EReal) (e : Fin 8) (t : Fin 1024) (f : Fin 12288) : EReal :=
  ∑ d : Fin 2048, x (ix3 e t d) * w (ix3 e d f)

/-- The gated activation of one hidden unit: `(g · logistic g) · u`. -/
def hiddenAt (x : TokShape.Idx → EReal) (w : GateUpShape.Idx → EReal) (e : Fin 8) (t : Fin 1024) (i : Fin 6144) : EReal :=
  (proj x w e t (gateCol i) * Ideal.logistic (proj x w e t (gateCol i))) * proj x w e t (upCol i)

/-- The hidden activation as an array. -/
def hidden (x : TokShape.Idx → EReal) (w : GateUpShape.Idx → EReal) : HidShape.Idx → EReal :=
  fun j => hiddenAt x w ⟨(j 0).val, (j 0).isLt⟩ ⟨(j 1).val, (j 1).isLt⟩ ⟨(j 2).val, (j 2).isLt⟩

/-- One entry of the down projection `h · wd`. -/
def downAt (h : HidShape.Idx → EReal) (wd : DownShape.Idx → EReal) (e : Fin 8) (t : Fin 1024) (d : Fin 2048) : EReal :=
  ∑ i : Fin 6144, h (ix3 e t i) * wd (ix3 e i d)

/-- The down projection as an array. -/
def down (h : HidShape.Idx → EReal) (wd : DownShape.Idx → EReal) : TokShape.Idx → EReal :=
  fun j => downAt h wd ⟨(j 0).val, (j 0).isLt⟩ ⟨(j 1).val, (j 1).isLt⟩ ⟨(j 2).val, (j 2).isLt⟩

/-- The whole block on grouped tokens. -/
def block (x : TokShape.Idx → EReal) (w : GateUpShape.Idx → EReal) (wd : DownShape.Idx → EReal) : TokShape.Idx → EReal :=
  down (hidden x w) wd

theorem hidden_apply (x : TokShape.Idx → EReal) (w : GateUpShape.Idx → EReal) (e : Fin 8) (t : Fin 1024) (i : Fin 6144) :
    hidden x w (ix3 e t i) = hiddenAt x w e t i := rfl

theorem down_apply (h : HidShape.Idx → EReal) (wd : DownShape.Idx → EReal) (e : Fin 8) (t : Fin 1024) (d : Fin 2048) :
    down h wd (ix3 e t d) = downAt h wd e t d := rfl

end Cert.Swiglu

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Ideal.GateUpValue.lean ====
/- What the first launch leaves in the hidden array, over the extended reals.

   A tile entry (p, q) at grid point (e, t, n) is (g · logistic g) · u, with g the product of row p of the token tile
   and column q of the gate tile, u the product with column q of the up tile; the tiles are the arrays' rectangles
   x[e, 512t .., :], w[e, :, 512n ..] and w[e, :, 6144 + 512n ..], so the entry is the gated activation at
   (e, 512t + p, 512n + q). The 8 · 2 · 12 output tiles fill the hidden array. -/
import proofs.«108341_j45956150067877_1_alg».proof.Proof.Ideal.GateUpData
import proofs.«108341_j45956150067877_1_alg».proof.Proof.Spec
import proofs.«108341_j45956150067877_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GateUp

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- The tile products contract the left operand's columns with the right operand's rows and nothing else. -/
theorem plainDot : PlainDot.IsPlain (R := 512) (K := 2048) (C := 512) dot_S512x2048_S2048x512_S512x512_1_0_0_1_n_n :=
  ⟨rfl, rfl, rfl, rfl, rfl, rfl⟩

/-- One tile product at an entry: row p of the token tile against column q of a weight tile. The changes of format
    are the identity on the extended reals and the casts only drop the tiles' unit axis. -/
theorem prod_apply (x0 : Vec Ideal S1x512x2048 .f32) (x1 : Vec Ideal S1x2048x512 .f32) (p q : Fin 512) :
    matmul dot_S512x2048_S2048x512_S512x512_1_0_0_1_n_n none
        (truncf .bf16 (shapeCast S512x2048 x0 shapeCasts_S1x512x2048_S512x2048) bitsLt_bf16_f32)
        (truncf .bf16 (shapeCast S2048x512 x1 shapeCasts_S1x2048x512_S2048x512) bitsLt_bf16_f32)
        (constant (F := Ideal) S512x512 .f32 0x00000000#32) (ix2 p q)
      = ∑ d : Fin 2048, x0 (ix3 (0 : Fin 1) p d) * x1 (ix3 (0 : Fin 1) d q) := by
  refine (PlainDot.matmul_zero_apply plainDot none _ _ p q).trans ?_
  refine Finset.sum_congr rfl fun d _ => ?_
  rw [truncf_apply, truncf_apply, shapeCast_1ab_ab_apply, shapeCast_1ab_ab_apply]

/-- The output tile at an entry: (g · logistic g) · u of the gate and up products there. -/
theorem tile_apply (x0 : Vec Ideal S1x512x2048 .f32) (x1 x2 : Vec Ideal S1x2048x512 .f32) (p q : Fin 512) :
    k0_pay1 x0 x1 x2 (ix3 (0 : Fin 1) p q)
      = ((∑ d : Fin 2048, x0 (ix3 (0 : Fin 1) p d) * x1 (ix3 (0 : Fin 1) d q))
          * Ideal.logistic (∑ d : Fin 2048, x0 (ix3 (0 : Fin 1) p d) * x1 (ix3 (0 : Fin 1) d q)))
        * (∑ d : Fin 2048, x0 (ix3 (0 : Fin 1) p d) * x2 (ix3 (0 : Fin 1) d q)) := by
  unfold k0_pay1
  refine (shapeCast_ab_1ab_apply _ _ 0 p q).trans ?_
  rw [truncf_apply, mulf_apply, mulf_apply]
  show _ * Ideal.logistic _ * _ = _
  rw [prod_apply, prod_apply]

/-- A tile entry is the gated activation of the arrays at the array index `k`, once each block entry it depends on
    is known to be the arrays' entry under it: the token row at (k 0, k 1), the gate column k 2 and the up column
    6144 + k 2 of expert k 0. -/
theorem tile_hidden (x : Cert.Swiglu.TokShape.Idx → EReal) (w : Cert.Swiglu.GateUpShape.Idx → EReal)
    (x0 : Vec Ideal S1x512x2048 .f32) (x1 x2 : Vec Ideal S1x2048x512 .f32) (p q : Fin 512)
    (k : Cert.Swiglu.HidShape.Idx)
    (h0 : ∀ d : Fin 2048, x0 (ix3 (0 : Fin 1) p d)
      = x (ix3 (⟨(k 0).val, (k 0).isLt⟩ : Fin 8) (⟨(k 1).val, (k 1).isLt⟩ : Fin 1024) d))
    (h1 : ∀ d : Fin 2048, x1 (ix3 (0 : Fin 1) d q)
      = w (ix3 (⟨(k 0).val, (k 0).isLt⟩ : Fin 8) d (Cert.Swiglu.gateCol ⟨(k 2).val, (k 2).isLt⟩)))
    (h2 : ∀ d : Fin 2048, x2 (ix3 (0 : Fin 1) d q)
      = w (ix3 (⟨(k 0).val, (k 0).isLt⟩ : Fin 8) d (Cert.Swiglu.upCol ⟨(k 2).val, (k 2).isLt⟩))) :
    k0_pay1 x0 x1 x2 (ix3 (0 : Fin 1) p q) = Cert.Swiglu.hidden x w k := by
  have e1 : (∑ d : Fin 2048, x0 (ix3 (0 : Fin 1) p d) * x1 (ix3 (0 : Fin 1) d q))
      = Cert.Swiglu.proj x w ⟨(k 0).val, (k 0).isLt⟩ ⟨(k 1).val, (k 1).isLt⟩ (Cert.Swiglu.gateCol ⟨(k 2).val, (k 2).isLt⟩) :=
    Finset.sum_congr rfl fun d _ => by rw [h0 d, h1 d]
  have e2 : (∑ d : Fin 2048, x0 (ix3 (0 : Fin 1) p d) * x2 (ix3 (0 : Fin 1) d q))
      = Cert.Swiglu.proj x w ⟨(k 0).val, (k 0).isLt⟩ ⟨(k 1).val, (k 1).isLt⟩ (Cert.Swiglu.upCol ⟨(k 2).val, (k 2).isLt⟩) :=
    Finset.sum_congr rfl fun d _ => by rw [h0 d, h2 d]
  rw [tile_apply, e1, e2]
  rfl

/-- The index maps over the grid: the token window moves with the output's expert and row tile, the gate window with
    its expert and column tile, the up window twelve column tiles further; the output's block indices are in range. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = win0_3.index t (2 : Fin 3)
    ∧ win0_2.index t (0 : Fin 3) = win0_3.index t (0 : Fin 3)
    ∧ win0_2.index t (1 : Fin 3) = 0
    ∧ win0_2.index t (2 : Fin 3) = win0_3.index t (2 : Fin 3) + 12
    ∧ win0_3.index t (0 : Fin 3) ≤ 7 ∧ win0_3.index t (1 : Fin 3) ≤ 1 ∧ win0_3.index t (2 : Fin 3) ≤ 11 :=
  (by decide +kernel : ∀ t : Fin grid0.N, _)

/-- What point `t` writes back is block `t` of the gated activation of the arrays: a block's coordinate in its array
    is block index × block size + the coordinate inside the block, and the three input blocks sit where the output
    block's rows and columns say. -/
theorem flushed_eq (c : Dev nD) (t : Fin cfg0.N) :
    (dat (F := Ideal) V c).flushed 3 t
      = ((cfg0.win 3).blk t).view.read (Elt Ideal) (Cert.Swiglu.hidden (V c main_v0) (V c main_arg1)) := by
  show (cfg0.win 3).cut (grid0.coords t) ((dat (F := Ideal) V c).after 3 t) = _
  rw [after_3]
  obtain ⟨a0, a1, a2, b0, b1, b2, c0, c1, c2, d0, d1, d2⟩ := idx_facts t
  refine funext fun (j : S1x512x512.Idx) => ?_
  obtain ⟨u, p, q, rfl⟩ : ∃ (u : Fin 1) (p q : Fin 512), j = ix3 u p q := ⟨j 0, j 1, j 2, eq_ix3 j⟩
  obtain rfl : u = 0 := Subsingleton.elim _ _
  show k0_pay1 (blk V c 0 t) (blk V c 1 t) (blk V c 2 t) (ix3 (0 : Fin 1) p q)
    = Cert.Swiglu.hidden (V c main_v0) (V c main_arg1) (((cfg0.win 3).blk t).view.emb (ix3 (0 : Fin 1) p q))
  refine tile_hidden (V c main_v0) (V c main_arg1) (blk V c 0 t) (blk V c 1 t) (blk V c 2 t) p q
    (((cfg0.win 3).blk t).view.emb (ix3 (0 : Fin 1) p q)) (fun d => ?_) (fun d => ?_) (fun d => ?_)
  · show V c main_v0 (((cfg0.win 0).blk t).view.emb (ix3 (0 : Fin 1) p d)) = V c main_v0 _
    refine congrArg (V c main_v0) (funext fun a => Fin.ext ?_)
    match a with
    | ⟨0, _⟩ => show win0_0.index t (0 : Fin 3) * 1 + 1 * (0 : Nat) = win0_3.index t (0 : Fin 3) * 1 + 1 * (0 : Nat); omega
    | ⟨1, _⟩ => show win0_0.index t (1 : Fin 3) * 512 + 1 * p.val = win0_3.index t (1 : Fin 3) * 512 + 1 * p.val; omega
    | ⟨2, _⟩ => show win0_0.index t (2 : Fin 3) * 2048 + 1 * d.val = d.val; omega
  · show V c main_arg1 (((cfg0.win 1).blk t).view.emb (ix3 (0 : Fin 1) d q)) = V c main_arg1 _
    refine congrArg (V c main_arg1) (funext fun a => Fin.ext ?_)
    match a with
    | ⟨0, _⟩ => show win0_1.index t (0 : Fin 3) * 1 + 1 * (0 : Nat) = win0_3.index t (0 : Fin 3) * 1 + 1 * (0 : Nat); omega
    | ⟨1, _⟩ => show win0_1.index t (1 : Fin 3) * 2048 + 1 * d.val = d.val; omega
    | ⟨2, _⟩ => show win0_1.index t (2 : Fin 3) * 512 + 1 * q.val = win0_3.index t (2 : Fin 3) * 512 + 1 * q.val; omega
  · show V c main_arg1 (((cfg0.win 2).blk t).view.emb (ix3 (0 : Fin 1) d q)) = V c main_arg1 _
    refine congrArg (V c main_arg1) (funext fun a => Fin.ext ?_)
    match a with
    | ⟨0, _⟩ => show win0_2.index t (0 : Fin 3) * 1 + 1 * (0 : Nat) = win0_3.index t (0 : Fin 3) * 1 + 1 * (0 : Nat); omega
    | ⟨1, _⟩ => show win0_2.index t (1 : Fin 3) * 2048 + 1 * d.val = d.val; omega
    | ⟨2, _⟩ => show win0_2.index t (2 : Fin 3) * 512 + 1 * q.val = 6144 + (win0_3.index t (2 : Fin 3) * 512 + 1 * q.val); omega

/-- An index of the hidden array is in point `t`'s block iff each coordinate is in the block's range on its axis. -/
theorem mem_blk (t : Fin cfg0.N) (i : S8x1024x6144.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v1).slice (win0_3.rect t)).set ↔ _
  rw [View.set_slice_whole, Rect.mem_set_unit]
  exact Iff.rfl

/-- Every block (expert, row tile, column tile) of the hidden array is some point's. -/
theorem idx_onto : ∀ (q0 : Fin 8) (q1 : Fin 2) (q2 : Fin 12), ∃ t : Fin cfg0.N, win0_3.index t = ![q0.val, q1.val, q2.val] :=
  (by decide +kernel : ∀ (q0 : Fin 8) (q1 : Fin 2) (q2 : Fin 12), ∃ t : Fin grid0.N, win0_3.index t = ![q0.val, q1.val, q2.val])

/-- The blocks tile the hidden array: entry (e, r, i) lies in the block of the point (e, r / 512, i / 512). -/
theorem covered (i : S8x1024x6144.Idx) :
    ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 6144 := (i 2).isLt
  obtain ⟨t, ht⟩ := idx_onto ⟨(i 0).val, hi0⟩ ⟨(i 1).val / 512, by omega⟩ ⟨(i 2).val / 512, by omega⟩
  have q0 : win0_3.index t (0 : Fin 3) = (i 0).val := congrFun ht 0
  have q1 : win0_3.index t (1 : Fin 3) = (i 1).val / 512 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- After all 192 points the hidden array is the gated activation of the grouped tokens and the fused weights. -/
theorem hidden_eq (c : Dev nD) :
    (dat (F := Ideal) V c).arrAt 3 cfg0.N = Cert.Swiglu.hidden (V c main_v0) (V c main_arg1) := by
  exact (dat (F := Ideal) V c).arrAt_eq_of_cover 3 (Cert.Swiglu.hidden (V c main_v0) (V c main_arg1))
    (fun t _ => flushed_eq V c t) covered

end Cert.KernelIdeal.GateUp

end
-- ==== Proof.SumBlocks.lean ====
/- Regrouping a long sum into consecutive runs.

   A sum over the 6144 = 6 · 1024 indices `0, …, 6143` equals the sum, over the six
   consecutive runs of 1024 indices, of the sum over each run: index `i` is written
   uniquely as `kb · 1024 + k` with `kb < 6` and `k < 1024`. -/
import Mathlib.Algebra.BigOperators.Fin
import Mathlib.Data.Fintype.BigOperators
import Mathlib.Logic.Equiv.Fin.Basic

namespace Cert.Swiglu

/-- The `k`-th index of the `kb`-th run of 1024 consecutive indices. -/
def chunkIdx (kb : Fin 6) (k : Fin 1024) : Fin 6144 := ⟨kb.val * 1024 + k.val, by omega⟩

/-- A sum over all 6144 indices is the sum over the six runs of the sums over each run:
    `(kb, k) ↦ kb · 1024 + k` is a bijection from pairs onto the indices. -/
theorem sum_chunks {M : Type*} [AddCommMonoid M] (f : Fin 6144 → M) :
    ∑ i, f i = ∑ kb : Fin 6, ∑ k : Fin 1024, f (chunkIdx kb k) := by
  rw [← Fintype.sum_prod_type' (fun kb k => f (chunkIdx kb k))]
  refine (Fintype.sum_equiv (finProdFinEquiv : Fin 6 × Fin 1024 ≃ Fin 6144)
    (fun x => f (chunkIdx x.1 x.2)) f (fun x => ?_)).symm
  congr 1
  apply Fin.ext
  simp only [chunkIdx, finProdFinEquiv_apply_val]
  omega

end Cert.Swiglu
-- ==== Proof.Ideal.DownValue.lean ====
/- What the second launch leaves in its result array, over the extended reals. -/
import proofs.«108341_j45956150067877_1_alg».proof.Proof.Ideal.DownData
import proofs.«108341_j45956150067877_1_alg».proof.Proof.Spec
import proofs.«108341_j45956150067877_1_alg».proof.Proof.LibPlainDot
import proofs.«108341_j45956150067877_1_alg».proof.Proof.SumBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Down

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! At grid point (e, t, k) the accumulator receives the product of the hidden tile h[e, 512t .., 1024k ..] and the
    weight tile wd[e, 1024k .., :]; it restarts from zero at k = 0, so after point (e, t, k) its entry (p, d) is the
    sum over the runs 0, …, k of Σ_j h[e, 512t + p, 1024·run + j] · wd[e, 1024·run + j, d]. At k = 5 the six runs
    exhaust the 6144 hidden units, and the entry is the down projection at (e, 512t + p, d); that tile is what is
    written back, and the tiles written back at the points with k = 5 cover the result array. Only commutativity
    and associativity of addition are used. -/

open Idealize.ShloMosaic.ValueIdx

/-- The record of the tile product is of the plain row-by-column form. -/
theorem dot_plain : PlainDot.IsPlain (R := 512) (K := 1024) (C := 2048) dot_S512x1024_S1024x2048_S512x2048_1_0_0_1_n_n :=
  ⟨rfl, rfl, rfl, rfl, rfl, rfl⟩

/-- The zero tile. -/
theorem pay1_apply (p : Fin 512) (q : Fin 2048) : k1_pay1 (F := Ideal) (ix2 p q) = 0 := by
  unfold k1_pay1
  rw [shapeCast_self]
  exact Ideal.ofBits_zero_f32

/-- One step: the accumulator plus the product of the two tiles. -/
theorem pay2_apply (h : Vec Ideal S1x512x1024 .bf16) (w : Vec Ideal S1x1024x2048 .f32) (a : Vec Ideal S512x2048 .f32)
    (p : Fin 512) (q : Fin 2048) :
    k1_pay2 h w a (ix2 p q) = a (ix2 p q) + ∑ k : Fin 1024, h (ix3 (0 : Fin 1) p k) * w (ix3 (0 : Fin 1) k q) := by
  unfold k1_pay2
  rw [shapeCast_self]
  refine (addf_apply _ _ _).trans ?_
  congr 1
  refine (PlainDot.matmul_zero_apply dot_plain none _ _ p q).trans ?_
  refine Finset.sum_congr rfl fun k _ => ?_
  rw [shapeCast_1ab_ab_apply, truncf_apply, shapeCast_1ab_ab_apply]

/-- The result tile with a leading unit axis added. -/
theorem pay3_apply (a : Vec Ideal S512x2048 .f32) (u : Fin 1) (p : Fin 512) (q : Fin 2048) :
    k1_pay3 a (ix3 u p q) = a (ix2 p q) := by
  unfold k1_pay3
  exact shapeCast_ab_1ab_apply _ _ u p q

/-- The hidden array and the weights, as the launch finds them. -/
abbrev hid (c : Dev nD) : Cert.Swiglu.HidShape.Idx → EReal := V c main_v1
abbrev wts (c : Dev nD) : Cert.Swiglu.DownShape.Idx → EReal := V c main_arg2

/-- The two tiles read at point `t`. -/
abbrev hblk (c : Dev nD) (t : Fin cfg1.N) : Vec Ideal S1x512x1024 .bf16 := blk V c 0 t
abbrev wblk (c : Dev nD) (t : Fin cfg1.N) : Vec Ideal S1x1024x2048 .f32 := blk V c 1 t

/-- The block indices of the three windows over the grid: point `n` has expert `n / 12`, row tile `n / 6 % 2`
    and run `n % 6`. -/
theorem idx_facts : ∀ t : Fin cfg1.N,
    win1_0.index t (0 : Fin 3) = t.val / 12 ∧ win1_0.index t (1 : Fin 3) = t.val / 6 % 2 ∧ win1_0.index t (2 : Fin 3) = t.val % 6
    ∧ win1_1.index t (0 : Fin 3) = t.val / 12 ∧ win1_1.index t (1 : Fin 3) = t.val % 6 ∧ win1_1.index t (2 : Fin 3) = 0
    ∧ win1_2.index t (0 : Fin 3) = t.val / 12 ∧ win1_2.index t (1 : Fin 3) = t.val / 6 % 2 ∧ win1_2.index t (2 : Fin 3) = 0 :=
  (by decide +kernel : ∀ t : Fin grid1.N, _)

/-- The expert of point `n`. -/
def eOf (n : ℕ) : Fin 8 := ⟨n / 12 % 8, Nat.mod_lt _ (by omega)⟩
/-- Row `p` of the row tile of point `n`, as a row of the array. -/
def rOf (n : ℕ) (p : Fin 512) : Fin 1024 := ⟨512 * (n / 6 % 2) + p.val, by omega⟩
/-- Index `k` of run `n % 6` of the 6144 hidden units. -/
def cOf (n : ℕ) (k : Fin 1024) : Fin 6144 := ⟨n % 6 * 1024 + k.val, by omega⟩

theorem hblk_apply (c : Dev nD) (t : Fin cfg1.N) (p : Fin 512) (k : Fin 1024) :
    hblk V c t (ix3 (0 : Fin 1) p k) = hid V c (ix3 (eOf t.val) (rOf t.val p) (cOf t.val k)) := by
  have hN : cfg1.N = 96 := N_1
  have ht := t.isLt
  obtain ⟨e0, e1, e2, -⟩ := idx_facts t
  show V c main_v1 (((cfg1.win 0).blk t).view.emb (ix3 (0 : Fin 1) p k)) = V c main_v1 _
  congr 1
  funext a; apply Fin.ext
  match a with
  | ⟨0, _⟩ => show win1_0.index t (0 : Fin 3) * 1 + 1 * 0 = t.val / 12 % 8; omega
  | ⟨1, _⟩ => show win1_0.index t (1 : Fin 3) * 512 + 1 * p.val = 512 * (t.val / 6 % 2) + p.val; omega
  | ⟨2, _⟩ => show win1_0.index t (2 : Fin 3) * 1024 + 1 * k.val = t.val % 6 * 1024 + k.val; omega

theorem wblk_apply (c : Dev nD) (t : Fin cfg1.N) (k : Fin 1024) (q : Fin 2048) :
    wblk V c t (ix3 (0 : Fin 1) k q) = wts V c (ix3 (eOf t.val) (cOf t.val k) q) := by
  have hN : cfg1.N = 96 := N_1
  have ht := t.isLt
  obtain ⟨-, -, -, e0, e1, e2, -⟩ := idx_facts t
  show V c main_arg2 (((cfg1.win 1).blk t).view.emb (ix3 (0 : Fin 1) k q)) = V c main_arg2 _
  congr 1
  funext a; apply Fin.ext
  match a with
  | ⟨0, _⟩ => show win1_1.index t (0 : Fin 3) * 1 + 1 * 0 = t.val / 12 % 8; omega
  | ⟨1, _⟩ => show win1_1.index t (1 : Fin 3) * 1024 + 1 * k.val = t.val % 6 * 1024 + k.val; omega
  | ⟨2, _⟩ => show win1_1.index t (2 : Fin 3) * 2048 + 1 * q.val = q.val; omega

/-- The product of the tiles of run `kb % 6` at row `r` and column `q` of expert `e`. -/
def term (H : Cert.Swiglu.HidShape.Idx → EReal) (W : Cert.Swiglu.DownShape.Idx → EReal) (e : Fin 8) (r : Fin 1024)
    (q : Fin 2048) (kb : ℕ) : EReal :=
  ∑ k : Fin 1024, H (ix3 e r (cOf kb k)) * W (ix3 e (cOf kb k) q)

theorem term_congr (H : Cert.Swiglu.HidShape.Idx → EReal) (W : Cert.Swiglu.DownShape.Idx → EReal) (e : Fin 8) (r : Fin 1024)
    (q : Fin 2048) (a b : ℕ) (h : a % 6 = b % 6) : term H W e r q a = term H W e r q b := by
  have hc : ∀ k, cOf a k = cOf b k := fun k => Fin.ext (by show a % 6 * 1024 + k.val = b % 6 * 1024 + k.val; rw [h])
  unfold term
  exact Finset.sum_congr rfl fun k _ => by rw [hc k]

/-- The product of the two tiles of point `t` is the product of its run. -/
theorem tiles_apply (c : Dev nD) (t : Fin cfg1.N) (p : Fin 512) (q : Fin 2048) :
    ∑ k : Fin 1024, hblk V c t (ix3 (0 : Fin 1) p k) * wblk V c t (ix3 (0 : Fin 1) k q)
      = term (hid V c) (wts V c) (eOf t.val) (rOf t.val p) q t.val := by
  unfold term
  exact Finset.sum_congr rfl fun k _ => by rw [hblk_apply, wblk_apply]

/-- After point `n` the accumulator holds the products of the runs `0, …, n % 6` of its expert and row tile, added up. -/
theorem acc_apply (c : Dev nD) : ∀ (n : ℕ) (hn : n < cfg1.N) (p : Fin 512) (q : Fin 2048),
    accAt V c n hn (ix2 p q)
      = ∑ kb ∈ Finset.range (n % 6 + 1), term (hid V c) (wts V c) (eOf n) (rOf n p) q kb := by
  have hN : cfg1.N = 96 := N_1
  intro n
  induction n with
  | zero =>
    intro hn p q
    have e1 : accAt V c 0 hn = k1_pay2 (hblk V c ⟨0, hn⟩) (wblk V c ⟨0, hn⟩) (k1_pay1 (F := Ideal)) := rfl
    rw [e1]
    refine (pay2_apply (hblk V c ⟨0, hn⟩) (wblk V c ⟨0, hn⟩) (k1_pay1 (F := Ideal)) p q).trans ?_
    rw [pay1_apply, zero_add, tiles_apply]
    show _ = ∑ kb ∈ Finset.range 1, _
    rw [Finset.sum_range_one]
  | succ n ih =>
    intro hn p q
    by_cases h6 : (n + 1) % 6 = 0
    · have e1 : accAt V c (n + 1) hn = k1_pay2 (hblk V c ⟨n + 1, hn⟩) (wblk V c ⟨n + 1, hn⟩) (k1_pay1 (F := Ideal)) := if_pos h6
      rw [e1]
      refine (pay2_apply (hblk V c ⟨n + 1, hn⟩) (wblk V c ⟨n + 1, hn⟩) (k1_pay1 (F := Ideal)) p q).trans ?_
      rw [pay1_apply, zero_add, tiles_apply, h6, Finset.sum_range_one]
      exact term_congr _ _ _ _ _ _ _ (by rw [h6])
    · have e1 : accAt V c (n + 1) hn
          = k1_pay2 (hblk V c ⟨n + 1, hn⟩) (wblk V c ⟨n + 1, hn⟩) (accAt V c n (Nat.lt_of_succ_lt hn)) := if_neg h6
      rw [e1]
      refine (pay2_apply (hblk V c ⟨n + 1, hn⟩) (wblk V c ⟨n + 1, hn⟩) (accAt V c n (Nat.lt_of_succ_lt hn)) p q).trans ?_
      rw [ih (Nat.lt_of_succ_lt hn) p q, tiles_apply]
      have he : eOf n = eOf (n + 1) := Fin.ext (by show n / 12 % 8 = (n + 1) / 12 % 8; omega)
      have hr : rOf n p = rOf (n + 1) p := Fin.ext (by show 512 * (n / 6 % 2) + p.val = 512 * ((n + 1) / 6 % 2) + p.val; omega)
      have h1 : (n + 1) % 6 = n % 6 + 1 := by omega
      rw [he, hr, h1, Finset.sum_range_succ _ (n % 6 + 1)]
      congr 1
      exact term_congr _ _ _ _ _ _ _ (by show (n + 1) % 6 = (n % 6 + 1) % 6; omega)

/-- At the last point of a run of six the accumulator holds the whole product. -/
theorem acc_last (c : Dev nD) (t : Fin cfg1.N) (h5 : t.val % 6 = 5) (p : Fin 512) (q : Fin 2048) :
    accAt V c t.val t.isLt (ix2 p q) = Cert.Swiglu.downAt (hid V c) (wts V c) (eOf t.val) (rOf t.val p) q := by
  rw [acc_apply V c t.val t.isLt p q, h5]
  unfold Cert.Swiglu.downAt
  rw [Cert.Swiglu.sum_chunks, ← Fin.sum_univ_eq_sum_range]
  refine Finset.sum_congr rfl fun kb _ => ?_
  have hc : ∀ k, cOf kb.val k = Cert.Swiglu.chunkIdx kb k := fun k =>
    Fin.ext (by show kb.val % 6 * 1024 + k.val = kb.val * 1024 + k.val; rw [Nat.mod_eq_of_lt kb.isLt])
  unfold term
  exact Finset.sum_congr rfl fun k _ => by rw [hc k]

/-- What a flushing point writes back is its block of the down projection. -/
theorem flushed_eq (c : Dev nD) (t : Fin cfg1.N) (hf : (cfg1.win 2).flush t = true) :
    (dat (F := Ideal) V c).flushed 2 t
      = ((cfg1.win 2).blk t).view.read (Elt Ideal) (Cert.Swiglu.down (hid V c) (wts V c)) := by
  have hN : cfg1.N = 96 := N_1
  have ht := t.isLt
  have h5 : t.val % 6 = 5 := (flush1_2 t).mp hf
  obtain ⟨-, -, -, -, -, -, e0, e1, e2⟩ := idx_facts t
  show (cfg1.win 2).cut (grid1.coords t) ((dat (F := Ideal) V c).after 2 t) = _
  rw [after_2]
  funext j
  obtain ⟨u, p, q, rfl⟩ : ∃ (u : Fin 1) (p : Fin 512) (q : Fin 2048), j = ix3 u p q := ⟨j 0, j 1, j 2, eq_ix3 j⟩
  show k1_pay3 (accAt V c t.val t.isLt) (ix3 u p q)
    = Cert.Swiglu.down (hid V c) (wts V c) (((cfg1.win 2).blk t).view.emb (ix3 u p q))
  have hemb : ((cfg1.win 2).blk t).view.emb (ix3 u p q) = ix3 (eOf t.val) (rOf t.val p) q := by
    funext a; apply Fin.ext
    match a with
    | ⟨0, _⟩ => show win1_2.index t (0 : Fin 3) * 1 + 1 * u.val = t.val / 12 % 8; omega
    | ⟨1, _⟩ => show win1_2.index t (1 : Fin 3) * 512 + 1 * p.val = 512 * (t.val / 6 % 2) + p.val; omega
    | ⟨2, _⟩ => show win1_2.index t (2 : Fin 3) * 2048 + 1 * q.val = q.val; omega
  rw [hemb, Cert.Swiglu.down_apply, pay3_apply, acc_last V c t h5 p q]

/-- Every entry of the result array lies in the block written back at the last point of its expert's and
    row tile's run. -/
theorem cover (c : Dev nD) (i : ((cfg1.win 2).arr.view.loc (c.tc : Thread nD τ)).2.ty.Idx) :
    ∃ t : Fin cfg1.N, (cfg1.win 2).flush t = true ∧ i ∈ ((cfg1.win 2).blk t).view.set := by
  have hN : cfg1.N = 96 := N_1
  have h0 : (i 0 : ℕ) < 8 := (i 0).isLt
  have h1 : (i 1 : ℕ) < 1024 := (i 1).isLt
  have h2 : (i 2 : ℕ) < 2048 := (i 2).isLt
  have hlt : 12 * (i 0 : ℕ) + 6 * ((i 1 : ℕ) / 512) + 5 < cfg1.N := by omega
  refine ⟨⟨12 * (i 0 : ℕ) + 6 * ((i 1 : ℕ) / 512) + 5, hlt⟩, (flush1_2 _).mpr (by show (12 * (i 0 : ℕ) + 6 * ((i 1 : ℕ) / 512) + 5) % 6 = 5; omega), ?_⟩
  obtain ⟨-, -, -, -, -, -, e0, e1, e2⟩ := idx_facts ⟨12 * (i 0 : ℕ) + 6 * ((i 1 : ℕ) / 512) + 5, hlt⟩
  show i ∈ ((View.whole main_v2).slice (win1_2.rect ⟨12 * (i 0 : ℕ) + 6 * ((i 1 : ℕ) / 512) + 5, hlt⟩)).set
  rw [View.set_slice_whole, Rect.mem_set_unit]
  intro a
  match a with
  | ⟨0, _⟩ =>
    show win1_2.index ⟨12 * (i 0 : ℕ) + 6 * ((i 1 : ℕ) / 512) + 5, hlt⟩ (0 : Fin 3) * 1 ≤ (i 0 : ℕ)
      ∧ (i 0 : ℕ) < win1_2.index ⟨12 * (i 0 : ℕ) + 6 * ((i 1 : ℕ) / 512) + 5, hlt⟩ (0 : Fin 3) * 1 + 1
    rw [e0]; show (12 * (i 0 : ℕ) + 6 * ((i 1 : ℕ) / 512) + 5) / 12 * 1 ≤ _ ∧ _ < (12 * (i 0 : ℕ) + 6 * ((i 1 : ℕ) / 512) + 5) / 12 * 1 + 1; omega
  | ⟨1, _⟩ =>
    show win1_2.index ⟨12 * (i 0 : ℕ) + 6 * ((i 1 : ℕ) / 512) + 5, hlt⟩ (1 : Fin 3) * 512 ≤ (i 1 : ℕ)
      ∧ (i 1 : ℕ) < win1_2.index ⟨12 * (i 0 : ℕ) + 6 * ((i 1 : ℕ) / 512) + 5, hlt⟩ (1 : Fin 3) * 512 + 512
    rw [e1]; show (12 * (i 0 : ℕ) + 6 * ((i 1 : ℕ) / 512) + 5) / 6 % 2 * 512 ≤ _ ∧ _ < (12 * (i 0 : ℕ) + 6 * ((i 1 : ℕ) / 512) + 5) / 6 % 2 * 512 + 512; omega
  | ⟨2, _⟩ =>
    show win1_2.index ⟨12 * (i 0 : ℕ) + 6 * ((i 1 : ℕ) / 512) + 5, hlt⟩ (2 : Fin 3) * 2048 ≤ (i 2 : ℕ)
      ∧ (i 2 : ℕ) < win1_2.index ⟨12 * (i 0 : ℕ) + 6 * ((i 1 : ℕ) / 512) + 5, hlt⟩ (2 : Fin 3) * 2048 + 2048
    rw [e2]; omega

/-- After all 96 points the result array is the down projection of the hidden array it was entered with. -/
theorem down_eq (c : Dev nD) :
    (dat (F := Ideal) V c).arrAt 2 cfg1.N = Cert.Swiglu.down (V c main_v1) (V c main_arg2) :=
  (dat (F := Ideal) V c).arrAt_eq_of_cover 2 (Cert.Swiglu.down (hid V c) (wts V c)) (flushed_eq V c) (cover c)

end Cert.KernelIdeal.Down

end
-- ==== Proof.Ideal.Result.lean ====
/- The idealized kernel's result as one function of its arguments.

   Reading the result buffer back through the four items: it is the second launch's result array flattened;
   that array is the down projection of the hidden array the first launch left and of the third argument; the
   hidden array is the gated activation of the regrouped first argument and of the second. -/
import proofs.«108341_j45956150067877_1_alg».proof.Proof.Ideal.Run
import proofs.«108341_j45956150067877_1_alg».proof.Proof.Ideal.GateUpValue
import proofs.«108341_j45956150067877_1_alg».proof.Proof.Ideal.DownValue
import Idealize.ShloMosaic.Lib.StableHlo.Run

set_option maxRecDepth 16384

noncomputable section

namespace Cert.KernelIdeal.Run

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The first launch is entered with the first argument regrouped by expert, -/
theorem entry_tokens (c : Dev nD) :
    E1 m c main_v0 = shapeCast S8x1024x2048 (m ((c.tc : Thread nD τ).loc main_arg0)) Facts₀.shapeCasts_S8192x2048_S8x1024x2048 := by
  show StableHlo.after hostOps0 (fun b => m (c, b)) (Proc.devRef .tc main_v0) = _
  after_results
  rfl

/-- and with the second argument as launched. -/
theorem entry_gateUp (c : Dev nD) : E1 m c main_arg1 = m ((c.tc : Thread nD τ).loc main_arg1) :=
  Gen.V1_of m c main_arg1 (by decide)

/-- The second launch is entered with the hidden array the first one left, -/
theorem entry_hidden (c : Dev nD) : E2 m c main_v1 = o1 m c := by
  show W2 m c (Proc.devRef .tc main_v1) = o1 m c
  unfold W2
  exact Function.update_self (Proc.devRef .tc main_v1 : DevRef τ sig) (o1 m c) (Gen.V1 m c)

/-- and with the third argument as launched. -/
theorem entry_down (c : Dev nD) : E2 m c main_arg2 = m ((c.tc : Thread nD τ).loc main_arg2) := by
  show W2 m c (Proc.devRef .tc main_arg2) = _
  unfold W2
  exact (Function.update_of_ne (StableHlo.devRef_ne_of_ne (by decide) : (Proc.devRef .tc main_arg2 : DevRef τ sig) ≠ Proc.devRef .tc main_v1) _ _).trans
    (Gen.V1_of m c main_arg2 (by decide))

/-- The result buffer at the end is the block applied to the regrouped first argument, flattened. -/
theorem result_eq (c : Dev nD) :
    Gen.V4 m (outs m) c main_v3
      = shapeCast S8192x2048
          (Cert.Swiglu.block (shapeCast S8x1024x2048 (m ((c.tc : Thread nD τ).loc main_arg0)) Facts₀.shapeCasts_S8192x2048_S8x1024x2048)
            (m ((c.tc : Thread nD τ).loc main_arg1)) (m ((c.tc : Thread nD τ).loc main_arg2)))
          Facts₀.shapeCasts_S8x1024x2048_S8192x2048 := by
  have e4 : Gen.V4 m (outs m) c main_v3 = shapeCast S8192x2048 (o2 m c) Facts₀.shapeCasts_S8x1024x2048_S8192x2048 := by
    rw [V4_eq]
    have e3 : W3 m c main_v2 = o2 m c := by
      unfold W3
      exact Function.update_self (Proc.devRef .tc main_v2 : DevRef τ sig) (o2 m c) (W2 m c)
    rw [← e3]
    show StableHlo.after hostOps2 (W3 m c) (Proc.devRef .tc main_v3) = _
    after_results
    rfl
  rw [e4]
  unfold Cert.Swiglu.block
  have ed : o2 m c = Cert.Swiglu.down (E2 m c main_v1) (E2 m c main_arg2) := Down.down_eq (E2 m) c
  have eh : o1 m c = Cert.Swiglu.hidden (E1 m c main_v0) (E1 m c main_arg1) := GateUp.hidden_eq (E1 m) c
  rw [ed, entry_hidden, entry_down, eh, entry_tokens, entry_gateUp]

end Cert.KernelIdeal.Run

end
-- ==== Proof.RefValue.lean ====
/- The reference program's result as one function of its arguments. -/
import proofs.«108341_j45956150067877_1_alg».proof.Proof.Gen.ReferenceIdeal.Read
import proofs.«108341_j45956150067877_1_alg».proof.Proof.Spec
import Idealize.ShloMosaic.Lib.IdealHost

noncomputable section

namespace Cert.RefValue

open Idealize.ShloMosaic Idealize.SL.Sem
open Cert.ReferenceIdeal Cert.ReferenceIdeal.Gen Cert.ReferenceIdeal.Read
open Idealize.ShloMosaic.ValueIdx

/-- The first contraction, read at one entry, is the fused projection: the same sum over the
    2048 input features, term by term. -/
theorem proj_eq (x0 : (⟨S8192x2048, .f32⟩ : BufTy).Contents (Elt Ideal)) (x1 : (⟨S8x2048x12288, .f32⟩ : BufTy).Contents (Elt Ideal))
    (e : Fin 8) (t : Fin 1024) (f : Fin 12288) :
    val_main_v1 (F := Ideal) x0 x1 (ix3 e t f) = Cert.Swiglu.proj (val_main_v0 (F := Ideal) x0) x1 e t f := by
  rw [val_main_v1_apply]
  unfold Cert.Swiglu.proj
  refine Finset.sum_congr rfl fun k _ => ?_
  have hl : lidx_main_v1 (ix3 e t f) k = ix3 e t k :=
    funext fun a => Fin.ext (by match a with | ⟨0, _⟩ => rfl | ⟨1, _⟩ => rfl | ⟨2, _⟩ => rfl)
  have hr : ridx_main_v1 (ix3 e t f) k = ix3 e k f :=
    funext fun a => Fin.ext (by match a with | ⟨0, _⟩ => rfl | ⟨1, _⟩ => rfl | ⟨2, _⟩ => rfl)
  rw [hl, hr]

/-- The gated product, read at one hidden unit: the first slice is the gate column, the second the
    up column, and the expansion `1 / (1 + exp (-g))` is the logistic function by its definition. -/
theorem hidden_eq (x0 : (⟨S8192x2048, .f32⟩ : BufTy).Contents (Elt Ideal)) (x1 : (⟨S8x2048x12288, .f32⟩ : BufTy).Contents (Elt Ideal))
    (e : Fin 8) (t : Fin 1024) (i : Fin 6144) :
    val_main_v5 (F := Ideal) x0 x1 (ix3 e t i) = Cert.Swiglu.hiddenAt (val_main_v0 (F := Ideal) x0) x1 e t i := by
  have h2 : idx_main_v2 (ix3 e t i) = ix3 e t (Cert.Swiglu.gateCol i) :=
    funext fun a => Fin.ext (by match a with | ⟨0, _⟩ => rfl | ⟨1, _⟩ => rfl | ⟨2, _⟩ => rfl)
  have h3 : idx_main_v3 (ix3 e t i) = ix3 e t (Cert.Swiglu.upCol i) :=
    funext fun a => Fin.ext (by match a with | ⟨0, _⟩ => rfl | ⟨1, _⟩ => rfl | ⟨2, _⟩ => rfl)
  simp only [val_main_v5_apply, val_main_v4_apply, val_main_call0_v5_apply, val_main_call0_v4_apply,
    val_main_call0_cst_0_apply, val_main_call0_v3_apply, val_main_call0_v2_apply, val_main_call0_cst_apply,
    val_main_call0_v1_apply, val_main_call0_v0_apply, val_main_v2_apply, val_main_v3_apply, h2, h3, proj_eq]
  simp only [Ideal.mulf_def, Ideal.hostDivf_def, Ideal.addf_def, Ideal.hostUnary_exp_def, Ideal.hostNegf_def,
    Ideal.negf_def, Ideal.ofBits_def, Ideal.ofBits_one_f32]
  rfl

/-- The second contraction of the gated products is the block: the same sum over the 6144 hidden
    units, term by term. -/
theorem v6_eq (x0 : (⟨S8192x2048, .f32⟩ : BufTy).Contents (Elt Ideal)) (x1 : (⟨S8x2048x12288, .f32⟩ : BufTy).Contents (Elt Ideal))
    (x2 : (⟨S8x6144x2048, .f32⟩ : BufTy).Contents (Elt Ideal)) :
    val_main_v6 (F := Ideal) x0 x1 x2 = Cert.Swiglu.block (val_main_v0 (F := Ideal) x0) x1 x2 := by
  funext j
  obtain ⟨e, t, d, rfl⟩ : ∃ (e : Fin 8) (t : Fin 1024) (d : Fin 2048), j = ix3 e t d := ⟨j 0, j 1, j 2, eq_ix3 j⟩
  rw [val_main_v6_apply]
  unfold Cert.Swiglu.block
  rw [Cert.Swiglu.down_apply]
  unfold Cert.Swiglu.downAt
  refine Finset.sum_congr rfl fun k _ => ?_
  have hl : lidx_main_v6 (ix3 e t d) k = ix3 e t k :=
    funext fun a => Fin.ext (by match a with | ⟨0, _⟩ => rfl | ⟨1, _⟩ => rfl | ⟨2, _⟩ => rfl)
  have hr : ridx_main_v6 (ix3 e t d) k = ix3 e k d :=
    funext fun a => Fin.ext (by match a with | ⟨0, _⟩ => rfl | ⟨1, _⟩ => rfl | ⟨2, _⟩ => rfl)
  rw [hl, hr, hidden_eq, Cert.Swiglu.hidden_apply]

/-- The reference's result is the block applied to the regrouped tokens, flattened again. -/
theorem ref_eq (x0 : (⟨S8192x2048, .f32⟩ : BufTy).Contents (Elt Ideal)) (x1 : (⟨S8x2048x12288, .f32⟩ : BufTy).Contents (Elt Ideal))
    (x2 : (⟨S8x6144x2048, .f32⟩ : BufTy).Contents (Elt Ideal)) :
    val_main_v7 (F := Ideal) x0 x1 x2
      = shapeCast S8192x2048 (Cert.Swiglu.block (shapeCast S8x1024x2048 x0 Facts₀.shapeCasts_S8192x2048_S8x1024x2048) x1 x2)
          Facts₀.shapeCasts_S8x1024x2048_S8192x2048 := by
  unfold val_main_v7
  rw [v6_eq]
  unfold val_main_v0
  rfl

end Cert.RefValue

end
-- ==== Proof.lean ====
/- The certificate of the expert feed-forward kernel against its reference.

   Kernel: two launches — the fused gate/up projection with the gated activation (g · logistic g) · u on
   512 × 512 tiles, then the down projection accumulated over six runs of 1024 hidden units in a scratch
   buffer. Reference: the same two contractions taken whole. Over the extended reals both are the block
   Σ_i ((g_i · logistic g_i) · u_i) · wd[i, ·] of Spec.lean: a change of float format is the identity, a
   tile product into a zero accumulator is a plain sum, the expansion 1 / (1 + exp (−g)) is the logistic
   function by definition, and the six partial sums regroup one sum over 6144 indices (addition is
   commutative and associative; no finiteness is needed, so the precondition is never opened).
   The three frames: each kernel program runs through the regions' records of Run.lean, at the word
   level and at the ideal instance; the reference's frame is its run with the result dropped. -/
import proofs.«108341_j45956150067877_1_alg».proof.Defs
import proofs.«108341_j45956150067877_1_alg».proof.Proof.Gen.Kernel
import proofs.«108341_j45956150067877_1_alg».proof.Proof.Gen.KernelIdeal
import proofs.«108341_j45956150067877_1_alg».proof.Proof.Gen.ReferenceIdeal
import proofs.«108341_j45956150067877_1_alg».proof.Proof.Gen.Pre_finite_inputs
import proofs.«108341_j45956150067877_1_alg».proof.Proof.Gen.ReferenceIdeal.Run
import proofs.«108341_j45956150067877_1_alg».proof.Proof.Gen.ReferenceIdeal.Read
import proofs.«108341_j45956150067877_1_alg».proof.Proof.Bits.GateUpBody
import proofs.«108341_j45956150067877_1_alg».proof.Proof.Bits.DownBody
import proofs.«108341_j45956150067877_1_alg».proof.Proof.Bits.Run
import proofs.«108341_j45956150067877_1_alg».proof.Proof.Ideal.GateUpBody
import proofs.«108341_j45956150067877_1_alg».proof.Proof.Ideal.DownBody
import proofs.«108341_j45956150067877_1_alg».proof.Proof.Ideal.Run
import proofs.«108341_j45956150067877_1_alg».proof.Proof.Ideal.Result
import proofs.«108341_j45956150067877_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level kernel's frame
  fun m ρ _ => Cert.Kernel.Run.frame (F := Bits) m ρ
    (fun c => Cert.Kernel.GateUp.body_obligation _ c) (fun c => Cert.Kernel.Down.body_obligation _ c)
    (fun c => Cert.Kernel.Down.inv_in _ c) (fun c => Cert.Kernel.Down.inv_out _ c),
  -- the idealized kernel's frame: its run with the result dropped
  fun m ρ _ => (θ_run Cert.KernelIdeal.defs _ _).mono (fun _ h c => (h c).2)
    (Cert.KernelIdeal.Run.run (F := Ideal) m ρ
      (fun c => Cert.KernelIdeal.GateUp.body_obligation _ c) (fun c => Cert.KernelIdeal.Down.body_obligation _ c)
      (fun c => Cert.KernelIdeal.Down.inv_in _ c) (fun c => Cert.KernelIdeal.Down.inv_out _ c)),
  -- the reference's frame: its run with the result dropped
  fun m ρ _ => (θ_run Cert.ReferenceIdeal.defs _ _).mono (fun _ h c => (h c).2) (Cert.ReferenceIdeal.Value.run (F := Ideal) m ρ),
  -- the ideal pass rewrote nothing
  trivial,
  -- both programs end with the block of the arguments in their result buffers
  fun m ρ m' ρ' _ hagree =>
    ⟨fun c => shapeCast Cert.KernelIdeal.S8192x2048
        (Cert.Swiglu.block
          (shapeCast Cert.KernelIdeal.S8x1024x2048 (m ((c.tc : Thread Cert.KernelIdeal.nD Cert.KernelIdeal.τ).loc Cert.KernelIdeal.main_arg0))
            Cert.KernelIdeal.Facts₀.shapeCasts_S8192x2048_S8x1024x2048)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)))
        Cert.KernelIdeal.Facts₀.shapeCasts_S8x1024x2048_S8192x2048,
      (θ_run Cert.KernelIdeal.defs _ _).mono
        (fun _ h c => ⟨(h c).1.trans (Cert.KernelIdeal.Run.result_eq m c), (h c).2⟩)
        (Cert.KernelIdeal.Run.run (F := Ideal) m ρ
          (fun c => Cert.KernelIdeal.GateUp.body_obligation _ c) (fun c => Cert.KernelIdeal.Down.body_obligation _ c)
          (fun c => Cert.KernelIdeal.Down.inv_in _ c) (fun c => Cert.KernelIdeal.Down.inv_out _ c)),
      (θ_run Cert.ReferenceIdeal.defs _ _).mono
        (fun _ h c => ⟨by
          rw [(h c).1, Cert.ReferenceIdeal.Read.val_main_v7_eq, Cert.RefValue.ref_eq, (hagree c).1, (hagree c).2.1, (hagree c).2.2], (h c).2⟩)
        (Cert.ReferenceIdeal.Value.run (F := Ideal) m' ρ')⟩⟩

end Cert.Proof

end
